-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S19200x128 : Shape := ⟨2, ![19200, 128]⟩

abbrev nBuf : Space → Nat
  | .hbm => 14
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S100000x128, .f32⟩
  | .local _ .vmem, ⟨0, _⟩ => ⟨S19200x128, .f32⟩
  | .local _ .vmem, ⟨1, _⟩ => ⟨S19200x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S19200x128, .f32⟩
  | .local _ .vmem, ⟨11, _⟩ => ⟨S19200x128, .f32⟩
  | .local _ .vmem, ⟨12, _⟩ => ⟨S128x128, .f32⟩
  | .local _ .vmem, ⟨13, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c5_i32 : BitVec 32 := 5#32
  let v0 : BitVec 32 := Scalar.subi c5_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c5_i32 : BitVec 32 := 5#32
  let v0 : BitVec 32 := Scalar.subi c5_i32 arg0
  let c0_i32 : BitVec 32 := 0#32
  let c0_i32_0 : BitVec 32 := 0#32
  ![v0.toNat, c0_i32.toNat]

abbrev stage0_0 : Fin 2 → Memref sig .tc .vmem S19200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S19200x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S19200x128_S19200x128_0_0 : ∀ a, (![0, 0] : Fin 2 → Nat) a + S19200x128.size a ≤ S19200x128.size a
  h_S19200x128 : 0 < S19200x128.numel
  bitsLt_bf16_f32 : FTy.bits .bf16 < FTy.bits .f32
  broadcasts_S1x128_S19200x128 : S1x128.Broadcasts S19200x128
  dot_S128x128_S128x128_S128x128_1_0_0_1_n_n_wf : DotDims.WF S128x128 S128x128 S128x128 [1] [0] [0] [1] [] []
  dot_S1x128_S128x128_S1x128_1_1_0_0_n_n_wf : DotDims.WF S1x128 S128x128 S1x128 [1] [1] [0] [0] [] []
  dot_S19200x128_S128x128_S19200x128_1_1_0_0_n_n_wf : DotDims.WF S19200x128 S128x128 S19200x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S19200x128.size a < S100000x128.size a
  hwx0_0 : ∀ i : grid0.Coords, EltTy.bits .f32 = 32 ∨ (Rect.unit (s := S100000x128) (fun a => cc0_transform_0 i a * S19200x128.size a) (fun a => (Pipeline.Clip.of (cc0_transform_0 i a) (S19200x128.size a) (S100000x128.size a)).extent (S19200x128.size a)) fun a => Pipeline.Clip.inb (Pipeline.Clip.ok_of (hstart0_0 i a))).WholeWords (EltTy.packing .f32)
  hwxs0_0 : ∀ i : grid0.Coords, EltTy.bits .f32 = 32 ∨ (Rect.unit (s := S19200x128) (fun _ => 0) (fun a => (Pipeline.Clip.of (cc0_transform_0 i a) (S19200x128.size a) (S100000x128.size a)).extent (S19200x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S19200x128.size a < S100000x128.size a
  hwx0_9 : ∀ i : grid0.Coords, EltTy.bits .f32 = 32 ∨ (Rect.unit (s := S100000x128) (fun a => cc0_transform_9 i a * S19200x128.size a) (fun a => (Pipeline.Clip.of (cc0_transform_9 i a) (S19200x128.size a) (S100000x128.size a)).extent (S19200x128.size a)) fun a => Pipeline.Clip.inb (Pipeline.Clip.ok_of (hstart0_9 i a))).WholeWords (EltTy.packing .f32)
  hwxs0_9 : ∀ i : grid0.Coords, EltTy.bits .f32 = 32 ∨ (Rect.unit (s := S19200x128) (fun _ => 0) (fun a => (Pipeline.Clip.of (cc0_transform_9 i a) (S19200x128.size a) (S100000x128.size a)).extent (S19200x128.size a)) fun a => (Nat.zero_add _).trans_le (Pipeline.Clip.extent_le (Pipeline.Clip.ok_of (hstart0_9 i a)))).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf
def dot_S19200x128_S128x128_S19200x128_1_1_0_0_n_n : DotDims S19200x128 S128x128 S19200x128 where
  lhsContracting := [1]
  rhsContracting := [1]
  lhsNonContracting := [0]
  rhsNonContracting := [0]
  lhsBatch := []
  rhsBatch := []
  wf := dot_S19200x128_S128x128_S19200x128_1_1_0_0_n_n_wf

abbrev win0_0 : Pipeline.Window sig grid0 :=
  Pipeline.Window.ofSpecClip (Memref.whole main_arg0) S19200x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v0) S19200x128.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S_, .f32⟩
  | .hbm, ⟨15, _⟩ => ⟨S100000x128, .f32⟩
  | .hbm, ⟨16, _⟩ => ⟨S100000x128, .f32⟩
  | .hbm, ⟨17, _⟩ => ⟨S128x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S128x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S128x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Kernel.Runs.lean ====
/-
  The kernel body as a transformer of buffer contents, at any float instance. The body has one branch, taken at the
  grid's first point only: there it stores the product of the two middle weight blocks and the collapsed middle bias
  into its two scratch buffers. At every point it then loads the feature block, the weights and biases and the two
  scratch buffers, and stores the three-layer result over the whole output buffer. Stated on arbitrary whole buffers
  holding arbitrary contents: what each buffer holds afterwards is one of the three stored values applied to those
  contents, and every buffer that is only read holds what it held.
-/
import proofs.«178610_g78271484003207_cont_sun_c4_201_21_alg».proof.Proof.Gen.Kernel.Frame
import proofs.«178610_g78271484003207_cont_sun_c4_201_21_alg».proof.Proof.Gen.Kernel.Skeleton
import Idealize.ShloMosaic.Lib.Pipeline.Value

set_option maxRecDepth 32768

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch: taken exactly at the grid's first point. -/
abbrev isFirst (i : grid0.Coords) : Prop :=
  (Scalar.cmpi .ne (Scalar.extui (Scalar.cmpi .eq (BitVec.ofNat 32 (i 0).val) 0#32)) 0#32) = 1#1

/-- A store of a whole buffer through a whole view, read back, is the stored value, whatever was there before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

theorem hz2 : (![0, 0] : Fin 2 → Nat) = fun _ => 0 := funext fun a => by fin_cases a <;> rfl

/-- A load of a whole buffer through a whole memref reads the contents. -/
theorem readAt_whole {sp : Space} {S : Shape} {e : EltTy} (mr : Memref sig .tc sp S e) (h : mr.IsWhole) (X : S.Idx → Elt F e)
    {off : Fin S.rank → Nat} (ho : off = fun _ => 0) (inb : ∀ a, off a + S.size a ≤ S.size a) :
    mr.view.readAt (Elt F) (Rect.unit off S.size inb).toLoadRect (h.unread X) = X := by
  rw [View.readAt_eq_ld, h.read_unread, View.ld_unit_zero (S := S) ho]

set_option maxHeartbeats 4000000 in
/-- The body at a point after the first: the branch is skipped; the output buffer ends at the three layers of the
    feature buffer, with the middle matrix and bias as the scratch buffers hold them; everything else is as it was. -/
theorem run_later (c : Dev nD) (i : grid0.Coords) (hc : ¬isFirst i) (arg1 : Memref sig .tc .vmem S19200x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S19200x128 .f32) (harg10 : arg10.IsWhole) (arg11 : Memref sig .tc .vmem S128x128 .f32) (harg11 : arg11.IsWhole) (arg12 : Memref sig .tc .vmem S1x128 .f32) (harg12 : arg12.IsWhole)
    (x0 : Vec F S19200x128 .f32) (x1 : Vec F S128x128 .f32) (x2 : Vec F S1x128 .f32) (x3 : Vec F S128x128 .f32) (x4 : Vec F S1x128 .f32)
    (x5 : Vec F S128x128 .f32) (x6 : Vec F S1x128 .f32) (x7 : Vec F S128x128 .f32) (x8 : Vec F S1x128 .f32)
    (s0 : Vec F S128x128 .f32) (s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k0_pay3 x0 x1 x2 s0 s1 x7 x8)
            ∗ owns (c : Thread nD τ) arg11 fullShare s0 ∗ owns (c : Thread nD τ) arg12 fullShare s1) -∗ K ⟨⟩))
      ⊢ wp frame (wpE (defs₀ (F := F)) Variants.none c none) E (cc0__fused_mlp_kernel i arg1 harg1 arg2 harg2 arg3 harg3 arg4 harg4 arg5 harg5 arg6 harg6 arg7 harg7 arg8 harg8 arg9 harg9 arg10 harg10 arg11 harg11 arg12 harg12) K := by
  simp only [cc0__fused_mlp_kernel_eq_skeleton]; unfold cc0__fused_mlp_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg11.eq_unread hf11; obtain rfl := harg12.eq_unread hf12
  sl_exec (disch := exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr
    swap; · iexact H10
    ipureintro
    rw [read_writes_whole _ _ hz2, readAt_whole arg1 harg1 x0 hz2, readAt_whole arg2 harg2 x1 hz2, readAt_whole arg3 harg3 x2 hz2,
      readAt_whole arg11 harg11 s0 hz2, readAt_whole arg12 harg12 s1 hz2, readAt_whole arg8 harg8 x7 hz2, readAt_whole arg9 harg9 x8 hz2]
  isplitl [H11]
  · iexists _; isplitr; · ipureintro; exact hf11
    iexact H11
  · iexists _; isplitr; · ipureintro; exact hf12
    iexact H12

set_option maxHeartbeats 4000000 in
/-- The body at the first point: the branch is taken; the scratch buffers end at the collapsed middle matrix and bias
    computed from the weight buffers, and the output buffer at the three layers with those. -/
theorem run_first (c : Dev nD) (i : grid0.Coords) (hc : isFirst i) (arg1 : Memref sig .tc .vmem S19200x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S19200x128 .f32) (harg10 : arg10.IsWhole) (arg11 : Memref sig .tc .vmem S128x128 .f32) (harg11 : arg11.IsWhole) (arg12 : Memref sig .tc .vmem S1x128 .f32) (harg12 : arg12.IsWhole)
    (x0 : Vec F S19200x128 .f32) (x1 : Vec F S128x128 .f32) (x2 : Vec F S1x128 .f32) (x3 : Vec F S128x128 .f32) (x4 : Vec F S1x128 .f32)
    (x5 : Vec F S128x128 .f32) (x6 : Vec F S1x128 .f32) (x7 : Vec F S128x128 .f32) (x8 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k0_pay3 x0 x1 x2 (k0_pay1 x5 x3) (k0_pay2 x4 x5 x6) x7 x8)
            ∗ owns (c : Thread nD τ) arg11 fullShare (k0_pay1 x5 x3) ∗ owns (c : Thread nD τ) arg12 fullShare (k0_pay2 x4 x5 x6)) -∗ K ⟨⟩))
      ⊢ wp frame (wpE (defs₀ (F := F)) Variants.none c none) E (cc0__fused_mlp_kernel i arg1 harg1 arg2 harg2 arg3 harg3 arg4 harg4 arg5 harg5 arg6 harg6 arg7 harg7 arg8 harg8 arg9 harg9 arg10 harg10 arg11 harg11 arg12 harg12) K := by
  simp only [cc0__fused_mlp_kernel_eq_skeleton]; unfold cc0__fused_mlp_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  sl_unfold_run_names
  isplitl [H10]
  · iexists _; isplitr
    swap; · iexact H10
    ipureintro
    rw [read_writes_whole _ _ hz2, View.readCov_unit_zero _ hz2, View.readCov_unit_zero _ hz2,
      readAt_whole arg1 harg1 x0 hz2, readAt_whole arg2 harg2 x1 hz2, readAt_whole arg3 harg3 x2 hz2,
      readAt_whole arg6 harg6 x5 hz2, readAt_whole arg4 harg4 x3 hz2, readAt_whole arg5 harg5 x4 hz2,
      readAt_whole arg7 harg7 x6 hz2, readAt_whole arg8 harg8 x7 hz2, readAt_whole arg9 harg9 x8 hz2]
  isplitl [H11]
  · iexists _; isplitr
    swap; · iexact H11
    ipureintro
    rw [read_writes_whole _ _ hz2, readAt_whole arg6 harg6 x5 hz2, readAt_whole arg4 harg4 x3 hz2]
  · iexists _; isplitr
    swap; · iexact H12
    ipureintro
    rw [read_writes_whole _ _ hz2, readAt_whole arg5 harg5 x4 hz2, readAt_whole arg6 harg6 x5 hz2, readAt_whole arg7 harg7 x6 hz2]

end Cert.Kernel.Hand

end
-- ==== Proof.Kernel.Frame.lean ====
/-
  The frame of the fused perceptron kernel, at any float instance: its one pipelined region runs to the end, faults
  nowhere and leaves the argument arrays as they were — and, for the exact instance, what the result array holds.

  The grid has six points; point t stages block 5 − t of the features (19200 rows; the last block, staged FIRST,
  overhangs the array by 15200 rows, whose staging contents nothing names) and writes block 5 − t of the result back,
  cut at the array's end. The eight weight and bias windows have a constant index map: fetched once, found again at
  every later point. The body keeps the collapsed middle matrix and bias in two scratch buffers, written at the first
  point and read at every point: the region's invariant tracks them — before the first point they hold anything, after
  any point they hold the two values computed from the weight blocks of the first point.

  Two body obligations are proved from one run of the body. One forgets the result window (what the body leaves there
  is not named): it serves the frame at every instance, where a matrix product of a block with unnamed rows has
  unnamed rows. The other names it, under the hypothesis that the rows of the result block inside the array do not
  depend on the unnamed rows of the feature block: it serves the value at the exact instance.
-/
import proofs.«178610_g78271484003207_cont_sun_c4_201_21_alg».proof.Proof.Kernel.Runs

set_option maxRecDepth 32768

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch, over the grid -/

/-- The body's branch is taken at the first point and at no other. -/
theorem isFirst_iff : ∀ t : Fin cfg0.N, isFirst (grid0.coords t) ↔ t.val = 0 :=
  (by decide +kernel : ∀ t : Fin grid0.N, isFirst (grid0.coords t) ↔ t.val = 0)

/-! ## The blocks the body finds -/

/-- The feature block at point `t`: the part of block 5 − t inside the array, filled out to the staging buffer's
    19200 rows with `d`. -/
abbrev blk0 (c : Dev nD) (t : Fin cfg0.N) (d : Vec F S19200x128 .f32) : Vec F S19200x128 .f32 :=
  win0_0.fill (grid0.coords t) d (iblk m c 0 t)
/-- The weight and bias blocks (each its whole array). -/
abbrev blk1 (c : Dev nD) (t : Fin cfg0.N) : Vec F S128x128 .f32 := iblk m c 1 t
abbrev blk2 (c : Dev nD) (t : Fin cfg0.N) : Vec F S1x128 .f32 := iblk m c 2 t
abbrev blk3 (c : Dev nD) (t : Fin cfg0.N) : Vec F S128x128 .f32 := iblk m c 3 t
abbrev blk4 (c : Dev nD) (t : Fin cfg0.N) : Vec F S1x128 .f32 := iblk m c 4 t
abbrev blk5 (c : Dev nD) (t : Fin cfg0.N) : Vec F S128x128 .f32 := iblk m c 5 t
abbrev blk6 (c : Dev nD) (t : Fin cfg0.N) : Vec F S1x128 .f32 := iblk m c 6 t
abbrev blk7 (c : Dev nD) (t : Fin cfg0.N) : Vec F S128x128 .f32 := iblk m c 7 t
abbrev blk8 (c : Dev nD) (t : Fin cfg0.N) : Vec F S1x128 .f32 := iblk m c 8 t

/-- A filler for staging rows nothing names: the zero word. -/
def zeroFill : Vec F S19200x128 .f32 := fun _ => Scalar.ofBits .f32 0#32

/-- The collapsed middle matrix and bias, from the weight blocks of the first point. -/
def midWv (c : Dev nD) : Vec F S128x128 .f32 := k0_pay1 (blk5 m c t0_0) (blk3 m c t0_0)
def midBv (c : Dev nD) : Vec F S1x128 .f32 := k0_pay2 (blk4 m c t0_0) (blk5 m c t0_0) (blk6 m c t0_0)

/-- What the body stores over the result's staging buffer at point `t` when the feature buffer's unnamed rows hold `d`. -/
def outBlk (c : Dev nD) (t : Fin cfg0.N) (d : Vec F S19200x128 .f32) : Vec F S19200x128 .f32 :=
  k0_pay3 (blk0 m c t d) (blk1 m c t) (blk2 m c t) (midWv m c) (midBv m c) (blk7 m c t) (blk8 m c t)

/-! ## The invariant: the two scratch buffers -/

abbrev sc0 : Memref sig .tc .vmem S128x128 .f32 := Memref.whole cc0_scratch0
abbrev sc1 : Memref sig .tc .vmem S1x128 .f32 := Memref.whole cc0_scratch1

/-- The class's invariant with the two scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Before point `n`: at the first point the class's invariant (the scratch buffers hold anything); later the scratch
    buffers hold the collapsed middle matrix and bias. -/
def PhiS (c : Dev nD) : ℕ → sProp 𝕄
  | 0 => Pipeline.ΦA spec0 c
  | _ + 1 => iprop(iprop(owns (c : Thread nD τ) sc0 fullShare (midWv m c) ∗ owns (c : Thread nD τ) sc1 fullShare (midBv m c)) ∗ (∃ r, prngReg c r))

theorem PhiS_pos (c : Dev nD) (n : ℕ) (hn : n ≠ 0) :
    PhiS m c n = iprop(iprop(owns (c : Thread nD τ) sc0 fullShare (midWv m c) ∗ owns (c : Thread nD τ) sc1 fullShare (midBv m c)) ∗ (∃ r, prngReg c r)) := by
  cases n with
  | zero => exact absurd rfl hn
  | succ n => rfl

/-! ## The proof data -/

/-- The arrays as the region finds them; after the body at point `t` the feature buffer at its block (zero-filled),
    each weight or bias buffer at its block, the result's buffer at the body's value with the feature buffer zero-filled;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t zeroFill
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t zeroFill
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk0 m c t zeroFill := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlk m c t zeroFill := by dsimp only [dats]

/-- The feature window is fetched at every point: its buffer holds the block, filled out with what was there. -/
theorem before_0 (c : Dev nD) (t : Fin cfg0.N) (d) : (dats m 0 c).before 0 t d = blk0 m c t d := by
  rw [(dats m 0 c).before_fetched 0 t (fetch0_0 t)]
  unfold Dat.fetched Dat.blockOf; rw [A_eq]; rfl
/-- Each weight or bias buffer holds its block at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
/-- The result's buffer was written back at the point before (or this is the first point): it holds anything. -/
theorem before_9 (c : Dev nD) (t : Fin cfg0.N) (d) : (dats m 0 c).before 9 t d = d :=
  (dats m 0 c).before_out_reset 9 rfl t (by
    by_cases h : t.val = 0
    · exact .inl h
    · exact .inr ⟨h, flush0_9 _⟩) d

/-! ## The body at a point -/

set_option maxHeartbeats 4000000 in
/-- The body at point `t`, from the invariant before it and the ten staging buffers at their blocks (the feature
    buffer's unnamed rows at `d0`, the result's buffer at anything), to the invariant after it, the nine input buffers as
    they were and the result's buffer at the body's value. -/
theorem sound_core (c : Dev nD) (t : Fin cfg0.N) (d0 d9 : Vec F S19200x128 .f32) (K : PUnit → sProp 𝕄) :
    iprop(PhiS m c t.val
        ∗ owns (c : Thread nD τ) (st0_0 t) fullShare (blk0 m c t d0) ∗ owns (c : Thread nD τ) (st0_1 t) fullShare (blk1 m c t)
        ∗ owns (c : Thread nD τ) (st0_2 t) fullShare (blk2 m c t) ∗ owns (c : Thread nD τ) (st0_3 t) fullShare (blk3 m c t)
        ∗ owns (c : Thread nD τ) (st0_4 t) fullShare (blk4 m c t) ∗ owns (c : Thread nD τ) (st0_5 t) fullShare (blk5 m c t)
        ∗ owns (c : Thread nD τ) (st0_6 t) fullShare (blk6 m c t) ∗ owns (c : Thread nD τ) (st0_7 t) fullShare (blk7 m c t)
        ∗ owns (c : Thread nD τ) (st0_8 t) fullShare (blk8 m c t) ∗ owns (c : Thread nD τ) (st0_9 t) fullShare d9
        ∗ (iprop(PhiS m c (t.val + 1)
            ∗ owns (c : Thread nD τ) (st0_0 t) fullShare (blk0 m c t d0) ∗ owns (c : Thread nD τ) (st0_1 t) fullShare (blk1 m c t)
            ∗ owns (c : Thread nD τ) (st0_2 t) fullShare (blk2 m c t) ∗ owns (c : Thread nD τ) (st0_3 t) fullShare (blk3 m c t)
            ∗ owns (c : Thread nD τ) (st0_4 t) fullShare (blk4 m c t) ∗ owns (c : Thread nD τ) (st0_5 t) fullShare (blk5 m c t)
            ∗ owns (c : Thread nD τ) (st0_6 t) fullShare (blk6 m c t) ∗ owns (c : Thread nD τ) (st0_7 t) fullShare (blk7 m c t)
            ∗ owns (c : Thread nD τ) (st0_8 t) fullShare (blk8 m c t) ∗ owns (c : Thread nD τ) (st0_9 t) fullShare (outBlk m c t d0)) -∗ K ⟨⟩))
      ⊢ wp frame (wpE (defs₀ (F := F)) Variants.none c none) Set.univ (bodyAt0 t) K := by
  unfold bodyAt0
  by_cases hz : t.val = 0
  · -- the first point: the scratch buffers hold anything and are written
    obtain rfl : t = t0_0 := Fin.ext hz
    rw [show PhiS m c t0_0.val = Pipeline.ΦA spec0 c from rfl, PhiA_eq]
    iintro ⟨⟨⟨HS0, HS1⟩, Hg⟩, H0, H1, H2, H3, H4, H5, H6, H7, H8, H9, Hk⟩
    iapply (run_first c (grid0.coords t0_0) ((isFirst_iff t0_0).mpr rfl) _ _ _ _ _ _ _ _ _ _ _ _ _ _ _ _ _ _ _ _ _ _ _ _
      (blk0 m c t0_0 d0) (blk1 m c t0_0) (blk2 m c t0_0) (blk3 m c t0_0) (blk4 m c t0_0) (blk5 m c t0_0) (blk6 m c t0_0) (blk7 m c t0_0) (blk8 m c t0_0) Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    isplitl [HS0]; · iexact HS0
    isplitl [HS1]; · iexact HS1
    iintro ⟨H0, H1, H2, H3, H4, H5, H6, H7, H8, H9, HS0, HS1⟩
    iapply Hk
    isplitl [HS0 HS1 Hg]
    · rw [show PhiS m c (t0_0.val + 1) = iprop(iprop(owns (c : Thread nD τ) sc0 fullShare (midWv m c) ∗ owns (c : Thread nD τ) sc1 fullShare (midBv m c)) ∗ (∃ r, prngReg c r)) from rfl]
      isplitl [HS0 HS1]
      · isplitl [HS0]
        · iexact HS0
        · iexact HS1
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · -- a later point: the scratch buffers hold the collapsed middle matrix and bias and are only read
    rw [PhiS_pos m c t.val hz]
    iintro ⟨⟨⟨HS0, HS1⟩, Hg⟩, H0, H1, H2, H3, H4, H5, H6, H7, H8, H9, Hk⟩
    iapply (run_later c (grid0.coords t) (fun h => hz ((isFirst_iff t).mp h)) _ _ _ _ _ _ _ _ _ _ _ _ _ _ _ _ _ _ _ _ _ _ _ _
      (blk0 m c t d0) (blk1 m c t) (blk2 m c t) (blk3 m c t) (blk4 m c t) (blk5 m c t) (blk6 m c t) (blk7 m c t) (blk8 m c t)
      (midWv m c) (midBv m c) Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    isplitl [HS0]; · iexact HS0
    isplitl [HS1]; · iexact HS1
    iintro ⟨H0, H1, H2, H3, H4, H5, H6, H7, H8, H9, HS0, HS1⟩
    iapply Hk
    isplitl [HS0 HS1 Hg]
    · rw [show PhiS m c (t.val + 1) = iprop(iprop(owns (c : Thread nD τ) sc0 fullShare (midWv m c) ∗ owns (c : Thread nD τ) sc1 fullShare (midBv m c)) ∗ (∃ r, prngReg c r)) from rfl]
      isplitl [HS0 HS1]
      · isplitl [HS0]
        · iexact HS0
        · iexact HS1
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## The body obligations -/

/-- The windows a frame forgets: the result's only. -/
abbrev fgt9 : Fin cfg0.W → Bool := fun | 0 => false | 1 => false | 2 => false | 3 => false | 4 => false | 5 => false | 6 => false | 7 => false | 8 => false | 9 => true | ⟨_ + 10, h⟩ => absurd h (Nat.not_lt.2 (Nat.le_add_left _ _))

theorem Phi_castSucc (c : Dev nD) (t : Fin cfg0.N) : (dats m 0 c).Φ t.castSucc = PhiS m c t.val := by
  dsimp only [dats]; simp only [Fin.coe_castSucc]

set_option maxHeartbeats 1000000 in
/-- The body obligation with the result window forgotten: the nine input buffers are handed back at their blocks
    (the feature buffer on the rows inside the array), the result's buffer at whatever the body left. -/
theorem body_obligation_forget (c : Dev nD) :
    BodyObligationLoose (dats (F := F) m 0 c) (defs₀ (F := F)) Variants.none () Set.univ fgt9 := fun t => by
  rw [bigSep_W0, bigSep_W0]
  simp only
  rw [show (dats m 0 c).Φ t.succ = PhiS m c (t.val + 1) from rfl, Phi_castSucc,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%X9, H9⟩⟩
  rw [before_0 m c t d0, before_1 m c t d1, before_2 m c t d2, before_3 m c t d3, before_4 m c t d4, before_5 m c t d5,
    before_6 m c t d6, before_7 m c t d7, before_8 m c t d8]
  iapply (sound_core m c t d0 X9 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨HΦ, H0, H1, H2, H3, H4, H5, H6, H7, H8, H9⟩
  isplitl [HΦ]; · iexact HΦ
  isplitl [Ho]; · iexact Ho
  isplitl [H0]
  · iexists d0
    rw [after_0, Window.cut_fill]; iexact H0
  isplitl [H1]; · rw [after_1]; iexact H1
  isplitl [H2]; · rw [after_2]; iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  iexists _; iexact H9

set_option maxHeartbeats 1000000 in
/-- The body obligation naming the result window, given that the rows of the result block inside the array do not
    depend on the feature buffer's unnamed rows. -/
theorem body_obligation_exact
    (hloc : ∀ (c : Dev nD) (t : Fin cfg0.N) (d : Vec F S19200x128 .f32),
      win0_9.cut (grid0.coords t) (outBlk m c t d) = win0_9.cut (grid0.coords t) (outBlk m c t zeroFill))
    (c : Dev nD) :
    BodyObligationLoose (dats (F := F) m 0 c) (defs₀ (F := F)) Variants.none () Set.univ := fun t => by
  rw [bigSep_W0, bigSep_W0]
  simp only
  rw [show (dats m 0 c).Φ t.succ = PhiS m c (t.val + 1) from rfl, Phi_castSucc,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7, before_8 m c t d8, before_9 m c t d9]
  iapply (sound_core m c t d0 d9 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨HΦ, H0, H1, H2, H3, H4, H5, H6, H7, H8, H9⟩
  isplitl [HΦ]; · iexact HΦ
  isplitl [Ho]; · iexact Ho
  isplitl [H0]
  · iexists d0
    rw [after_0, Window.cut_fill]; iexact H0
  isplitl [H1]; · rw [after_1]; iexact H1
  isplitl [H2]; · rw [after_2]; iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  iexists (outBlk m c t d0)
  rw [after_9, ← hloc c t d0, Window.fill_cut]; iexact H9

/-! ## Into and out of the region -/

theorem hin (c : Dev nD) : Pipeline.ΦA spec0 c ⊢ (dats m 0 c).Φ 0 := by
  rw [show (dats m 0 c).Φ 0 = Pipeline.ΦA spec0 c from rfl]

/-- After the last point the scratch buffers' contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 6 := N_0; omega), PhiA_eq]
  iintro ⟨⟨HS0, HS1⟩, Hg⟩
  isplitl [HS0 HS1]
  · isplitl [HS0]
    · iexists _; iexact HS0
    · iexists _; iexact HS1
  · iexact Hg

/-! ## The runs -/

set_option backward.isDefEq.respectTransparency.types false in
/-- With the result window forgotten: every weakly fair execution of @main terminates, every input array ends at its
    entry contents and every other unscoped buffer as the region found it. -/
theorem run_forget : θ_run defs (onTc (τ := τ) (main (F := F))) (s₀ m ρ)
    (Pipeline.RDat.FramePost cfg0 (fun c => (dats m 0 c).toRForget fgt9) (V m)) :=
  Pipeline.RDat.θ_run_frame_track cfgs (0 : Fin 1) launch0 defs₀ Variants.none (fun c => (dats m 0 c).toRForget fgt9) m ρ main
    (hbody := fun c => (body_obligation_forget m c).toRForget)
    (hshare := fun c w => (congrFun ((dats m 0 c).toRForget_share fgt9) w).trans ((dats m 0 c).share_full (fun _ => rfl) w))
    (howed := fun _ _ => rfl) (V := V m) (hmain := hmain m Variants.none) (hA := fun c w => A_eq m c w)
    (hin := hin m) (hout := hout m)

set_option backward.isDefEq.respectTransparency.types false in
/-- With the result window named (under the row-locality hypothesis): the same, and the result array ends at what the
    library computes from the six write-backs. -/
theorem run_exact
    (hloc : ∀ (c : Dev nD) (t : Fin cfg0.N) (d : Vec F S19200x128 .f32),
      win0_9.cut (grid0.coords t) (outBlk m c t d) = win0_9.cut (grid0.coords t) (outBlk m c t zeroFill)) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation_exact m hloc c) (hshare := fun c => (dats m 0 c).share_full fun _ => rfl)
    (howed := fun _ _ => rfl) (V := V m) (hmain := hmain m Variants.none) (hA := A_eq m) (hin := hin m) (hout := hout m)

/-- An input window's array ends at what the region found there. -/
theorem arr_in_of (r : PUnit × MemSt nD τ sig (Elt F))
    (h : Pipeline.RDat.FramePost cfg0 (fun c => (dats m 0 c).toRForget fgt9) (V m) r) (c : Dev nD) (w : Fin cfg0.W)
    (hw : (cfg0.win w).isOut = false) :
    r.2.mem ((cfg0.spec w).arr.view.loc (c.tc : Thread nD τ)) = V m c (Pipeline.arrRef spec0 w) :=
  (Pipeline.RDat.FramePost.arr_in h c w hw).trans (A_eq m c w)

/-- THE FRAME, at any instance: the nine argument arrays end as launched — the five the region stages by the run's
    post at an input window, the four bias vectors (staged through their reshaped copies) as buffers the region bypasses. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (arr_in_of m r h c 0 rfl).trans (V_main_arg0 m c),
      (arr_in_of m r h c 1 rfl).trans (V_main_arg1 m c),
      ((h c).2 main_arg2 (Pipeline.mem_restRefs_of main_arg2 (by decide) (by decide))).trans (V_main_arg2 m c),
      (arr_in_of m r h c 3 rfl).trans (V_main_arg3 m c),
      ((h c).2 main_arg4 (Pipeline.mem_restRefs_of main_arg4 (by decide) (by decide))).trans (V_main_arg4 m c),
      (arr_in_of m r h c 5 rfl).trans (V_main_arg5 m c),
      ((h c).2 main_arg6 (Pipeline.mem_restRefs_of main_arg6 (by decide) (by decide))).trans (V_main_arg6 m c),
      (arr_in_of m r h c 7 rfl).trans (V_main_arg7 m c),
      ((h c).2 main_arg8 (Pipeline.mem_restRefs_of main_arg8 (by decide) (by decide))).trans (V_main_arg8 m c)⟩)
    (run_forget m ρ)

end Cert.Kernel.Hand

end
-- ==== Proof.KernelIdeal.Runs.lean ====
/-
  The kernel body as a transformer of buffer contents, at any float instance. The body has one branch, taken at the
  grid's first point only: there it stores the product of the two middle weight blocks and the collapsed middle bias
  into its two scratch buffers. At every point it then loads the feature block, the weights and biases and the two
  scratch buffers, and stores the three-layer result over the whole output buffer. Stated on arbitrary whole buffers
  holding arbitrary contents: what each buffer holds afterwards is one of the three stored values applied to those
  contents, and every buffer that is only read holds what it held.
-/
import proofs.«178610_g78271484003207_cont_sun_c4_201_21_alg».proof.Proof.Gen.KernelIdeal.Frame
import proofs.«178610_g78271484003207_cont_sun_c4_201_21_alg».proof.Proof.Gen.KernelIdeal.Skeleton
import Idealize.ShloMosaic.Lib.Pipeline.Value

set_option maxRecDepth 32768

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch: taken exactly at the grid's first point. -/
abbrev isFirst (i : grid0.Coords) : Prop :=
  (Scalar.cmpi .ne (Scalar.extui (Scalar.cmpi .eq (BitVec.ofNat 32 (i 0).val) 0#32)) 0#32) = 1#1

/-- A store of a whole buffer through a whole view, read back, is the stored value, whatever was there before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

theorem hz2 : (![0, 0] : Fin 2 → Nat) = fun _ => 0 := funext fun a => by fin_cases a <;> rfl

/-- A load of a whole buffer through a whole memref reads the contents. -/
theorem readAt_whole {sp : Space} {S : Shape} {e : EltTy} (mr : Memref sig .tc sp S e) (h : mr.IsWhole) (X : S.Idx → Elt F e)
    {off : Fin S.rank → Nat} (ho : off = fun _ => 0) (inb : ∀ a, off a + S.size a ≤ S.size a) :
    mr.view.readAt (Elt F) (Rect.unit off S.size inb).toLoadRect (h.unread X) = X := by
  rw [View.readAt_eq_ld, h.read_unread, View.ld_unit_zero (S := S) ho]

set_option maxHeartbeats 4000000 in
/-- The body at a point after the first: the branch is skipped; the output buffer ends at the three layers of the
    feature buffer, with the middle matrix and bias as the scratch buffers hold them; everything else is as it was. -/
theorem run_later (c : Dev nD) (i : grid0.Coords) (hc : ¬isFirst i) (arg1 : Memref sig .tc .vmem S19200x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S19200x128 .f32) (harg10 : arg10.IsWhole) (arg11 : Memref sig .tc .vmem S128x128 .f32) (harg11 : arg11.IsWhole) (arg12 : Memref sig .tc .vmem S1x128 .f32) (harg12 : arg12.IsWhole)
    (x0 : Vec F S19200x128 .f32) (x1 : Vec F S128x128 .f32) (x2 : Vec F S1x128 .f32) (x3 : Vec F S128x128 .f32) (x4 : Vec F S1x128 .f32)
    (x5 : Vec F S128x128 .f32) (x6 : Vec F S1x128 .f32) (x7 : Vec F S128x128 .f32) (x8 : Vec F S1x128 .f32)
    (s0 : Vec F S128x128 .f32) (s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ owns (c : Thread nD τ) arg11 fullShare s0 ∗ owns (c : Thread nD τ) arg12 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k0_pay3 x0 x1 x2 s0 s1 x7 x8)
            ∗ owns (c : Thread nD τ) arg11 fullShare s0 ∗ owns (c : Thread nD τ) arg12 fullShare s1) -∗ K ⟨⟩))
      ⊢ wp frame (wpE (defs₀ (F := F)) Variants.none c none) E (cc0__fused_mlp_kernel i arg1 harg1 arg2 harg2 arg3 harg3 arg4 harg4 arg5 harg5 arg6 harg6 arg7 harg7 arg8 harg8 arg9 harg9 arg10 harg10 arg11 harg11 arg12 harg12) K := by
  simp only [cc0__fused_mlp_kernel_eq_skeleton]; unfold cc0__fused_mlp_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  obtain rfl := harg11.eq_unread hf11; obtain rfl := harg12.eq_unread hf12
  sl_exec (disch := exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr
    swap; · iexact H10
    ipureintro
    rw [read_writes_whole _ _ hz2, readAt_whole arg1 harg1 x0 hz2, readAt_whole arg2 harg2 x1 hz2, readAt_whole arg3 harg3 x2 hz2,
      readAt_whole arg11 harg11 s0 hz2, readAt_whole arg12 harg12 s1 hz2, readAt_whole arg8 harg8 x7 hz2, readAt_whole arg9 harg9 x8 hz2]
  isplitl [H11]
  · iexists _; isplitr; · ipureintro; exact hf11
    iexact H11
  · iexists _; isplitr; · ipureintro; exact hf12
    iexact H12

set_option maxHeartbeats 4000000 in
/-- The body at the first point: the branch is taken; the scratch buffers end at the collapsed middle matrix and bias
    computed from the weight buffers, and the output buffer at the three layers with those. -/
theorem run_first (c : Dev nD) (i : grid0.Coords) (hc : isFirst i) (arg1 : Memref sig .tc .vmem S19200x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S19200x128 .f32) (harg10 : arg10.IsWhole) (arg11 : Memref sig .tc .vmem S128x128 .f32) (harg11 : arg11.IsWhole) (arg12 : Memref sig .tc .vmem S1x128 .f32) (harg12 : arg12.IsWhole)
    (x0 : Vec F S19200x128 .f32) (x1 : Vec F S128x128 .f32) (x2 : Vec F S1x128 .f32) (x3 : Vec F S128x128 .f32) (x4 : Vec F S1x128 .f32)
    (x5 : Vec F S128x128 .f32) (x6 : Vec F S1x128 .f32) (x7 : Vec F S128x128 .f32) (x8 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (k0_pay3 x0 x1 x2 (k0_pay1 x5 x3) (k0_pay2 x4 x5 x6) x7 x8)
            ∗ owns (c : Thread nD τ) arg11 fullShare (k0_pay1 x5 x3) ∗ owns (c : Thread nD τ) arg12 fullShare (k0_pay2 x4 x5 x6)) -∗ K ⟨⟩))
      ⊢ wp frame (wpE (defs₀ (F := F)) Variants.none c none) E (cc0__fused_mlp_kernel i arg1 harg1 arg2 harg2 arg3 harg3 arg4 harg4 arg5 harg5 arg6 harg6 arg7 harg7 arg8 harg8 arg9 harg9 arg10 harg10 arg11 harg11 arg12 harg12) K := by
  simp only [cc0__fused_mlp_kernel_eq_skeleton]; unfold cc0__fused_mlp_kernel_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  sl_unfold_run_names
  isplitl [H10]
  · iexists _; isplitr
    swap; · iexact H10
    ipureintro
    rw [read_writes_whole _ _ hz2, View.readCov_unit_zero _ hz2, View.readCov_unit_zero _ hz2,
      readAt_whole arg1 harg1 x0 hz2, readAt_whole arg2 harg2 x1 hz2, readAt_whole arg3 harg3 x2 hz2,
      readAt_whole arg6 harg6 x5 hz2, readAt_whole arg4 harg4 x3 hz2, readAt_whole arg5 harg5 x4 hz2,
      readAt_whole arg7 harg7 x6 hz2, readAt_whole arg8 harg8 x7 hz2, readAt_whole arg9 harg9 x8 hz2]
  isplitl [H11]
  · iexists _; isplitr
    swap; · iexact H11
    ipureintro
    rw [read_writes_whole _ _ hz2, readAt_whole arg6 harg6 x5 hz2, readAt_whole arg4 harg4 x3 hz2]
  · iexists _; isplitr
    swap; · iexact H12
    ipureintro
    rw [read_writes_whole _ _ hz2, readAt_whole arg5 harg5 x4 hz2, readAt_whole arg6 harg6 x5 hz2, readAt_whole arg7 harg7 x6 hz2]

end Cert.KernelIdeal.Hand

end
-- ==== Proof.KernelIdeal.Frame.lean ====
/-
  The frame of the fused perceptron kernel, at any float instance: its one pipelined region runs to the end, faults
  nowhere and leaves the argument arrays as they were — and, for the exact instance, what the result array holds.

  The grid has six points; point t stages block 5 − t of the features (19200 rows; the last block, staged FIRST,
  overhangs the array by 15200 rows, whose staging contents nothing names) and writes block 5 − t of the result back,
  cut at the array's end. The eight weight and bias windows have a constant index map: fetched once, found again at
  every later point. The body keeps the collapsed middle matrix and bias in two scratch buffers, written at the first
  point and read at every point: the region's invariant tracks them — before the first point they hold anything, after
  any point they hold the two values computed from the weight blocks of the first point.

  Two body obligations are proved from one run of the body. One forgets the result window (what the body leaves there
  is not named): it serves the frame at every instance, where a matrix product of a block with unnamed rows has
  unnamed rows. The other names it, under the hypothesis that the rows of the result block inside the array do not
  depend on the unnamed rows of the feature block: it serves the value at the exact instance.
-/
import proofs.«178610_g78271484003207_cont_sun_c4_201_21_alg».proof.Proof.KernelIdeal.Runs

set_option maxRecDepth 32768

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch, over the grid -/

/-- The body's branch is taken at the first point and at no other. -/
theorem isFirst_iff : ∀ t : Fin cfg0.N, isFirst (grid0.coords t) ↔ t.val = 0 :=
  (by decide +kernel : ∀ t : Fin grid0.N, isFirst (grid0.coords t) ↔ t.val = 0)

/-! ## The blocks the body finds -/

/-- The feature block at point `t`: the part of block 5 − t inside the array, filled out to the staging buffer's
    19200 rows with `d`. -/
abbrev blk0 (c : Dev nD) (t : Fin cfg0.N) (d : Vec F S19200x128 .f32) : Vec F S19200x128 .f32 :=
  win0_0.fill (grid0.coords t) d (iblk m c 0 t)
/-- The weight and bias blocks (each its whole array). -/
abbrev blk1 (c : Dev nD) (t : Fin cfg0.N) : Vec F S128x128 .f32 := iblk m c 1 t
abbrev blk2 (c : Dev nD) (t : Fin cfg0.N) : Vec F S1x128 .f32 := iblk m c 2 t
abbrev blk3 (c : Dev nD) (t : Fin cfg0.N) : Vec F S128x128 .f32 := iblk m c 3 t
abbrev blk4 (c : Dev nD) (t : Fin cfg0.N) : Vec F S1x128 .f32 := iblk m c 4 t
abbrev blk5 (c : Dev nD) (t : Fin cfg0.N) : Vec F S128x128 .f32 := iblk m c 5 t
abbrev blk6 (c : Dev nD) (t : Fin cfg0.N) : Vec F S1x128 .f32 := iblk m c 6 t
abbrev blk7 (c : Dev nD) (t : Fin cfg0.N) : Vec F S128x128 .f32 := iblk m c 7 t
abbrev blk8 (c : Dev nD) (t : Fin cfg0.N) : Vec F S1x128 .f32 := iblk m c 8 t

/-- A filler for staging rows nothing names: the zero word. -/
def zeroFill : Vec F S19200x128 .f32 := fun _ => Scalar.ofBits .f32 0#32

/-- The collapsed middle matrix and bias, from the weight blocks of the first point. -/
def midWv (c : Dev nD) : Vec F S128x128 .f32 := k0_pay1 (blk5 m c t0_0) (blk3 m c t0_0)
def midBv (c : Dev nD) : Vec F S1x128 .f32 := k0_pay2 (blk4 m c t0_0) (blk5 m c t0_0) (blk6 m c t0_0)

/-- What the body stores over the result's staging buffer at point `t` when the feature buffer's unnamed rows hold `d`. -/
def outBlk (c : Dev nD) (t : Fin cfg0.N) (d : Vec F S19200x128 .f32) : Vec F S19200x128 .f32 :=
  k0_pay3 (blk0 m c t d) (blk1 m c t) (blk2 m c t) (midWv m c) (midBv m c) (blk7 m c t) (blk8 m c t)

/-! ## The invariant: the two scratch buffers -/

abbrev sc0 : Memref sig .tc .vmem S128x128 .f32 := Memref.whole cc0_scratch0
abbrev sc1 : Memref sig .tc .vmem S1x128 .f32 := Memref.whole cc0_scratch1

/-- The class's invariant with the two scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Before point `n`: at the first point the class's invariant (the scratch buffers hold anything); later the scratch
    buffers hold the collapsed middle matrix and bias. -/
def PhiS (c : Dev nD) : ℕ → sProp 𝕄
  | 0 => Pipeline.ΦA spec0 c
  | _ + 1 => iprop(iprop(owns (c : Thread nD τ) sc0 fullShare (midWv m c) ∗ owns (c : Thread nD τ) sc1 fullShare (midBv m c)) ∗ (∃ r, prngReg c r))

theorem PhiS_pos (c : Dev nD) (n : ℕ) (hn : n ≠ 0) :
    PhiS m c n = iprop(iprop(owns (c : Thread nD τ) sc0 fullShare (midWv m c) ∗ owns (c : Thread nD τ) sc1 fullShare (midBv m c)) ∗ (∃ r, prngReg c r)) := by
  cases n with
  | zero => exact absurd rfl hn
  | succ n => rfl

/-! ## The proof data -/

/-- The arrays as the region finds them; after the body at point `t` the feature buffer at its block (zero-filled),
    each weight or bias buffer at its block, the result's buffer at the body's value with the feature buffer zero-filled;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t zeroFill
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk m c t zeroFill
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk0 m c t zeroFill := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outBlk m c t zeroFill := by dsimp only [dats]

/-- The feature window is fetched at every point: its buffer holds the block, filled out with what was there. -/
theorem before_0 (c : Dev nD) (t : Fin cfg0.N) (d) : (dats m 0 c).before 0 t d = blk0 m c t d := by
  rw [(dats m 0 c).before_fetched 0 t (fetch0_0 t)]
  unfold Dat.fetched Dat.blockOf; rw [A_eq]; rfl
/-- Each weight or bias buffer holds its block at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
/-- The result's buffer was written back at the point before (or this is the first point): it holds anything. -/
theorem before_9 (c : Dev nD) (t : Fin cfg0.N) (d) : (dats m 0 c).before 9 t d = d :=
  (dats m 0 c).before_out_reset 9 rfl t (by
    by_cases h : t.val = 0
    · exact .inl h
    · exact .inr ⟨h, flush0_9 _⟩) d

/-! ## The body at a point -/

set_option maxHeartbeats 4000000 in
/-- The body at point `t`, from the invariant before it and the ten staging buffers at their blocks (the feature
    buffer's unnamed rows at `d0`, the result's buffer at anything), to the invariant after it, the nine input buffers as
    they were and the result's buffer at the body's value. -/
theorem sound_core (c : Dev nD) (t : Fin cfg0.N) (d0 d9 : Vec F S19200x128 .f32) (K : PUnit → sProp 𝕄) :
    iprop(PhiS m c t.val
        ∗ owns (c : Thread nD τ) (st0_0 t) fullShare (blk0 m c t d0) ∗ owns (c : Thread nD τ) (st0_1 t) fullShare (blk1 m c t)
        ∗ owns (c : Thread nD τ) (st0_2 t) fullShare (blk2 m c t) ∗ owns (c : Thread nD τ) (st0_3 t) fullShare (blk3 m c t)
        ∗ owns (c : Thread nD τ) (st0_4 t) fullShare (blk4 m c t) ∗ owns (c : Thread nD τ) (st0_5 t) fullShare (blk5 m c t)
        ∗ owns (c : Thread nD τ) (st0_6 t) fullShare (blk6 m c t) ∗ owns (c : Thread nD τ) (st0_7 t) fullShare (blk7 m c t)
        ∗ owns (c : Thread nD τ) (st0_8 t) fullShare (blk8 m c t) ∗ owns (c : Thread nD τ) (st0_9 t) fullShare d9
        ∗ (iprop(PhiS m c (t.val + 1)
            ∗ owns (c : Thread nD τ) (st0_0 t) fullShare (blk0 m c t d0) ∗ owns (c : Thread nD τ) (st0_1 t) fullShare (blk1 m c t)
            ∗ owns (c : Thread nD τ) (st0_2 t) fullShare (blk2 m c t) ∗ owns (c : Thread nD τ) (st0_3 t) fullShare (blk3 m c t)
            ∗ owns (c : Thread nD τ) (st0_4 t) fullShare (blk4 m c t) ∗ owns (c : Thread nD τ) (st0_5 t) fullShare (blk5 m c t)
            ∗ owns (c : Thread nD τ) (st0_6 t) fullShare (blk6 m c t) ∗ owns (c : Thread nD τ) (st0_7 t) fullShare (blk7 m c t)
            ∗ owns (c : Thread nD τ) (st0_8 t) fullShare (blk8 m c t) ∗ owns (c : Thread nD τ) (st0_9 t) fullShare (outBlk m c t d0)) -∗ K ⟨⟩))
      ⊢ wp frame (wpE (defs₀ (F := F)) Variants.none c none) Set.univ (bodyAt0 t) K := by
  unfold bodyAt0
  by_cases hz : t.val = 0
  · -- the first point: the scratch buffers hold anything and are written
    obtain rfl : t = t0_0 := Fin.ext hz
    rw [show PhiS m c t0_0.val = Pipeline.ΦA spec0 c from rfl, PhiA_eq]
    iintro ⟨⟨⟨HS0, HS1⟩, Hg⟩, H0, H1, H2, H3, H4, H5, H6, H7, H8, H9, Hk⟩
    iapply (run_first c (grid0.coords t0_0) ((isFirst_iff t0_0).mpr rfl) _ _ _ _ _ _ _ _ _ _ _ _ _ _ _ _ _ _ _ _ _ _ _ _
      (blk0 m c t0_0 d0) (blk1 m c t0_0) (blk2 m c t0_0) (blk3 m c t0_0) (blk4 m c t0_0) (blk5 m c t0_0) (blk6 m c t0_0) (blk7 m c t0_0) (blk8 m c t0_0) Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    isplitl [HS0]; · iexact HS0
    isplitl [HS1]; · iexact HS1
    iintro ⟨H0, H1, H2, H3, H4, H5, H6, H7, H8, H9, HS0, HS1⟩
    iapply Hk
    isplitl [HS0 HS1 Hg]
    · rw [show PhiS m c (t0_0.val + 1) = iprop(iprop(owns (c : Thread nD τ) sc0 fullShare (midWv m c) ∗ owns (c : Thread nD τ) sc1 fullShare (midBv m c)) ∗ (∃ r, prngReg c r)) from rfl]
      isplitl [HS0 HS1]
      · isplitl [HS0]
        · iexact HS0
        · iexact HS1
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · -- a later point: the scratch buffers hold the collapsed middle matrix and bias and are only read
    rw [PhiS_pos m c t.val hz]
    iintro ⟨⟨⟨HS0, HS1⟩, Hg⟩, H0, H1, H2, H3, H4, H5, H6, H7, H8, H9, Hk⟩
    iapply (run_later c (grid0.coords t) (fun h => hz ((isFirst_iff t).mp h)) _ _ _ _ _ _ _ _ _ _ _ _ _ _ _ _ _ _ _ _ _ _ _ _
      (blk0 m c t d0) (blk1 m c t) (blk2 m c t) (blk3 m c t) (blk4 m c t) (blk5 m c t) (blk6 m c t) (blk7 m c t) (blk8 m c t)
      (midWv m c) (midBv m c) Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    isplitl [HS0]; · iexact HS0
    isplitl [HS1]; · iexact HS1
    iintro ⟨H0, H1, H2, H3, H4, H5, H6, H7, H8, H9, HS0, HS1⟩
    iapply Hk
    isplitl [HS0 HS1 Hg]
    · rw [show PhiS m c (t.val + 1) = iprop(iprop(owns (c : Thread nD τ) sc0 fullShare (midWv m c) ∗ owns (c : Thread nD τ) sc1 fullShare (midBv m c)) ∗ (∃ r, prngReg c r)) from rfl]
      isplitl [HS0 HS1]
      · isplitl [HS0]
        · iexact HS0
        · iexact HS1
      · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## The body obligations -/

/-- The windows a frame forgets: the result's only. -/
abbrev fgt9 : Fin cfg0.W → Bool := fun | 0 => false | 1 => false | 2 => false | 3 => false | 4 => false | 5 => false | 6 => false | 7 => false | 8 => false | 9 => true | ⟨_ + 10, h⟩ => absurd h (Nat.not_lt.2 (Nat.le_add_left _ _))

theorem Phi_castSucc (c : Dev nD) (t : Fin cfg0.N) : (dats m 0 c).Φ t.castSucc = PhiS m c t.val := by
  dsimp only [dats]; simp only [Fin.coe_castSucc]

set_option maxHeartbeats 1000000 in
/-- The body obligation with the result window forgotten: the nine input buffers are handed back at their blocks
    (the feature buffer on the rows inside the array), the result's buffer at whatever the body left. -/
theorem body_obligation_forget (c : Dev nD) :
    BodyObligationLoose (dats (F := F) m 0 c) (defs₀ (F := F)) Variants.none () Set.univ fgt9 := fun t => by
  rw [bigSep_W0, bigSep_W0]
  simp only
  rw [show (dats m 0 c).Φ t.succ = PhiS m c (t.val + 1) from rfl, Phi_castSucc,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%X9, H9⟩⟩
  rw [before_0 m c t d0, before_1 m c t d1, before_2 m c t d2, before_3 m c t d3, before_4 m c t d4, before_5 m c t d5,
    before_6 m c t d6, before_7 m c t d7, before_8 m c t d8]
  iapply (sound_core m c t d0 X9 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨HΦ, H0, H1, H2, H3, H4, H5, H6, H7, H8, H9⟩
  isplitl [HΦ]; · iexact HΦ
  isplitl [Ho]; · iexact Ho
  isplitl [H0]
  · iexists d0
    rw [after_0, Window.cut_fill]; iexact H0
  isplitl [H1]; · rw [after_1]; iexact H1
  isplitl [H2]; · rw [after_2]; iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  iexists _; iexact H9

set_option maxHeartbeats 1000000 in
/-- The body obligation naming the result window, given that the rows of the result block inside the array do not
    depend on the feature buffer's unnamed rows. -/
theorem body_obligation_exact
    (hloc : ∀ (c : Dev nD) (t : Fin cfg0.N) (d : Vec F S19200x128 .f32),
      win0_9.cut (grid0.coords t) (outBlk m c t d) = win0_9.cut (grid0.coords t) (outBlk m c t zeroFill))
    (c : Dev nD) :
    BodyObligationLoose (dats (F := F) m 0 c) (defs₀ (F := F)) Variants.none () Set.univ := fun t => by
  rw [bigSep_W0, bigSep_W0]
  simp only
  rw [show (dats m 0 c).Φ t.succ = PhiS m c (t.val + 1) from rfl, Phi_castSucc,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5,
    before_6 m c t d6, before_7 m c t d7, before_8 m c t d8, before_9 m c t d9]
  iapply (sound_core m c t d0 d9 _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨HΦ, H0, H1, H2, H3, H4, H5, H6, H7, H8, H9⟩
  isplitl [HΦ]; · iexact HΦ
  isplitl [Ho]; · iexact Ho
  isplitl [H0]
  · iexists d0
    rw [after_0, Window.cut_fill]; iexact H0
  isplitl [H1]; · rw [after_1]; iexact H1
  isplitl [H2]; · rw [after_2]; iexact H2
  isplitl [H3]; · rw [after_3]; iexact H3
  isplitl [H4]; · rw [after_4]; iexact H4
  isplitl [H5]; · rw [after_5]; iexact H5
  isplitl [H6]; · rw [after_6]; iexact H6
  isplitl [H7]; · rw [after_7]; iexact H7
  isplitl [H8]; · rw [after_8]; iexact H8
  iexists (outBlk m c t d0)
  rw [after_9, ← hloc c t d0, Window.fill_cut]; iexact H9

/-! ## Into and out of the region -/

theorem hin (c : Dev nD) : Pipeline.ΦA spec0 c ⊢ (dats m 0 c).Φ 0 := by
  rw [show (dats m 0 c).Φ 0 = Pipeline.ΦA spec0 c from rfl]

/-- After the last point the scratch buffers' contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 6 := N_0; omega), PhiA_eq]
  iintro ⟨⟨HS0, HS1⟩, Hg⟩
  isplitl [HS0 HS1]
  · isplitl [HS0]
    · iexists _; iexact HS0
    · iexists _; iexact HS1
  · iexact Hg

/-! ## The runs -/

set_option backward.isDefEq.respectTransparency.types false in
/-- With the result window forgotten: every weakly fair execution of @main terminates, every input array ends at its
    entry contents and every other unscoped buffer as the region found it. -/
theorem run_forget : θ_run defs (onTc (τ := τ) (main (F := F))) (s₀ m ρ)
    (Pipeline.RDat.FramePost cfg0 (fun c => (dats m 0 c).toRForget fgt9) (V m)) :=
  Pipeline.RDat.θ_run_frame_track cfgs (0 : Fin 1) launch0 defs₀ Variants.none (fun c => (dats m 0 c).toRForget fgt9) m ρ main
    (hbody := fun c => (body_obligation_forget m c).toRForget)
    (hshare := fun c w => (congrFun ((dats m 0 c).toRForget_share fgt9) w).trans ((dats m 0 c).share_full (fun _ => rfl) w))
    (howed := fun _ _ => rfl) (V := V m) (hmain := hmain m Variants.none) (hA := fun c w => A_eq m c w)
    (hin := hin m) (hout := hout m)

set_option backward.isDefEq.respectTransparency.types false in
/-- With the result window named (under the row-locality hypothesis): the same, and the result array ends at what the
    library computes from the six write-backs. -/
theorem run_exact
    (hloc : ∀ (c : Dev nD) (t : Fin cfg0.N) (d : Vec F S19200x128 .f32),
      win0_9.cut (grid0.coords t) (outBlk m c t d) = win0_9.cut (grid0.coords t) (outBlk m c t zeroFill)) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation_exact m hloc c) (hshare := fun c => (dats m 0 c).share_full fun _ => rfl)
    (howed := fun _ _ => rfl) (V := V m) (hmain := hmain m Variants.none) (hA := A_eq m) (hin := hin m) (hout := hout m)

/-- An input window's array ends at what the region found there. -/
theorem arr_in_of (r : PUnit × MemSt nD τ sig (Elt F))
    (h : Pipeline.RDat.FramePost cfg0 (fun c => (dats m 0 c).toRForget fgt9) (V m) r) (c : Dev nD) (w : Fin cfg0.W)
    (hw : (cfg0.win w).isOut = false) :
    r.2.mem ((cfg0.spec w).arr.view.loc (c.tc : Thread nD τ)) = V m c (Pipeline.arrRef spec0 w) :=
  (Pipeline.RDat.FramePost.arr_in h c w hw).trans (A_eq m c w)

/-- THE FRAME, at any instance: the nine argument arrays end as launched — the five the region stages by the run's
    post at an input window, the four bias vectors (staged through their reshaped copies) as buffers the region bypasses. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (arr_in_of m r h c 0 rfl).trans (V_main_arg0 m c),
      (arr_in_of m r h c 1 rfl).trans (V_main_arg1 m c),
      ((h c).2 main_arg2 (Pipeline.mem_restRefs_of main_arg2 (by decide) (by decide))).trans (V_main_arg2 m c),
      (arr_in_of m r h c 3 rfl).trans (V_main_arg3 m c),
      ((h c).2 main_arg4 (Pipeline.mem_restRefs_of main_arg4 (by decide) (by decide))).trans (V_main_arg4 m c),
      (arr_in_of m r h c 5 rfl).trans (V_main_arg5 m c),
      ((h c).2 main_arg6 (Pipeline.mem_restRefs_of main_arg6 (by decide) (by decide))).trans (V_main_arg6 m c),
      (arr_in_of m r h c 7 rfl).trans (V_main_arg7 m c),
      ((h c).2 main_arg8 (Pipeline.mem_restRefs_of main_arg8 (by decide) (by decide))).trans (V_main_arg8 m c)⟩)
    (run_forget m ρ)

end Cert.KernelIdeal.Hand

end
-- ==== Proof.Spec.lean ====
/-
  The mathematics of the fused three-matmul perceptron, free of any program.

  One row x of the node features passes through four affine layers with a ReLU after the first and the third:
  out = Wt1 · relu (Ws1 · (Wt0 · relu (Ws0 · x + bs0) + bt0) + bs1) + bt1   (the reference's order).
  Between the second and the third layer there is no nonlinearity, so the two collapse into one affine map with
  matrix Ws1 · Wt0 and bias Ws1 · bt0 + bs1 (the kernel's order). Over the reals the two orders agree by
  distributivity and the exchange of two finite sums; on the extended reals they agree as soon as every weight, bias and
  feature is a real number, since then every intermediate value is one too.
-/
import Idealize.ShloMosaic.PureOps.Ideal
import Idealize.ShloMosaic.Lib.ValueIdx
import Mathlib.Data.EReal.Operations
import Mathlib.Algebra.BigOperators.Ring.Finset

noncomputable section

namespace Cert.Mlp

open Idealize.ShloMosaic Idealize.ShloMosaic.ValueIdx

/-- One affine layer on a row: `(aff x W b) a = (∑ k, x k * W a k) + b a` (the weight matrix stored output-major, as
    `torch.nn.Linear` does: `x @ W.T + b`). -/
def aff (x : Fin 128 → EReal) (W : Fin 128 → Fin 128 → EReal) (b : Fin 128 → EReal) : Fin 128 → EReal :=
  fun a => (∑ k : Fin 128, x k * W a k) + b a

/-- ReLU on a row. -/
def relu (x : Fin 128 → EReal) : Fin 128 → EReal := fun a => max (x a) 0

/-- The collapsed middle matrix `Ws1 · Wt0`: entry (a, k) is `∑ j, Ws1 a j * Wt0 j k`. -/
def midW (Ws1 Wt0 : Fin 128 → Fin 128 → EReal) : Fin 128 → Fin 128 → EReal :=
  fun a k => ∑ j : Fin 128, Ws1 a j * Wt0 j k

/-- The collapsed middle bias `Ws1 · bt0 + bs1`: entry a is `(∑ j, bt0 j * Ws1 a j) + bs1 a`. -/
def midB (bt0 : Fin 128 → EReal) (Ws1 : Fin 128 → Fin 128 → EReal) (bs1 : Fin 128 → EReal) : Fin 128 → EReal :=
  fun a => (∑ j : Fin 128, bt0 j * Ws1 a j) + bs1 a

/-- A row through the kernel's three layers (the middle two collapsed). -/
def kernelRow (x : Fin 128 → EReal) (Ws0 : Fin 128 → Fin 128 → EReal) (bs0 : Fin 128 → EReal)
    (Wt0 : Fin 128 → Fin 128 → EReal) (bt0 : Fin 128 → EReal) (Ws1 : Fin 128 → Fin 128 → EReal) (bs1 : Fin 128 → EReal)
    (Wt1 : Fin 128 → Fin 128 → EReal) (bt1 : Fin 128 → EReal) : Fin 128 → EReal :=
  aff (relu (aff (relu (aff x Ws0 bs0)) (midW Ws1 Wt0) (midB bt0 Ws1 bs1))) Wt1 bt1

/-- A row through the reference's four layers. -/
def refRow (x : Fin 128 → EReal) (Ws0 : Fin 128 → Fin 128 → EReal) (bs0 : Fin 128 → EReal)
    (Wt0 : Fin 128 → Fin 128 → EReal) (bt0 : Fin 128 → EReal) (Ws1 : Fin 128 → Fin 128 → EReal) (bs1 : Fin 128 → EReal)
    (Wt1 : Fin 128 → Fin 128 → EReal) (bt1 : Fin 128 → EReal) : Fin 128 → EReal :=
  aff (relu (aff (aff (relu (aff x Ws0 bs0)) Wt0 bt0) Ws1 bs1)) Wt1 bt1

/-- Every entry is a real number (neither infinity). -/
def Real1 (b : Fin 128 → EReal) : Prop := ∀ a, ∃ r : ℝ, b a = (r : EReal)
def Real2 (W : Fin 128 → Fin 128 → EReal) : Prop := ∀ a k, ∃ r : ℝ, W a k = (r : EReal)

/-- The coercion of the reals into the extended reals commutes with a finite sum. -/
theorem coe_finsum {ι : Type} (s : Finset ι) (f : ι → ℝ) :
    (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- An affine layer on real data is the real affine layer, coerced. -/
theorem aff_coe (x : Fin 128 → ℝ) (W : Fin 128 → Fin 128 → ℝ) (b : Fin 128 → ℝ) :
    aff (fun k => (x k : EReal)) (fun a k => (W a k : EReal)) (fun a => (b a : EReal))
      = fun a => (((∑ k : Fin 128, x k * W a k) + b a : ℝ) : EReal) := by
  funext a
  simp only [aff]
  rw [EReal.coe_add, ← coe_finsum]
  simp only [EReal.coe_mul]

/-- The maximum with zero commutes with the coercion (the coercion is monotone). -/
theorem coe_max_zero (r : ℝ) : max (r : EReal) 0 = ((max r 0 : ℝ) : EReal) := by
  rcases le_total r 0 with h | h
  · have h' : (r : EReal) ≤ 0 := by exact_mod_cast h
    rw [max_eq_right h, max_eq_right h', EReal.coe_zero]
  · have h' : (0 : EReal) ≤ (r : EReal) := by exact_mod_cast h
    rw [max_eq_left h, max_eq_left h']

/-- ReLU on real data is the real ReLU, coerced. -/
theorem relu_coe (x : Fin 128 → ℝ) :
    relu (fun k => (x k : EReal)) = fun a => ((max (x a) 0 : ℝ) : EReal) := by
  funext a
  simp only [relu]
  exact coe_max_zero (x a)

/-- The collapsed matrix of real matrices is the real matrix product, coerced. -/
theorem midW_coe (Ws1 Wt0 : Fin 128 → Fin 128 → ℝ) :
    midW (fun a k => (Ws1 a k : EReal)) (fun a k => (Wt0 a k : EReal))
      = fun a k => ((∑ j : Fin 128, Ws1 a j * Wt0 j k : ℝ) : EReal) := by
  funext a k
  simp only [midW]
  rw [← coe_finsum]
  simp only [EReal.coe_mul]

/-- The collapsed bias of real data is the real collapsed bias, coerced. -/
theorem midB_coe (bt0 : Fin 128 → ℝ) (Ws1 : Fin 128 → Fin 128 → ℝ) (bs1 : Fin 128 → ℝ) :
    midB (fun a => (bt0 a : EReal)) (fun a k => (Ws1 a k : EReal)) (fun a => (bs1 a : EReal))
      = fun a => (((∑ j : Fin 128, bt0 j * Ws1 a j) + bs1 a : ℝ) : EReal) := by
  funext a
  simp only [midB]
  rw [EReal.coe_add, ← coe_finsum]
  simp only [EReal.coe_mul]

/-- The law over the reals: distributivity and the exchange of the two finite sums. -/
theorem real_law (h : Fin 128 → ℝ) (Wt0 Ws1 : Fin 128 → Fin 128 → ℝ) (bt0 bs1 : Fin 128 → ℝ) (a : Fin 128) :
    (∑ k : Fin 128, h k * (∑ j : Fin 128, Ws1 a j * Wt0 j k)) + ((∑ j : Fin 128, bt0 j * Ws1 a j) + bs1 a)
      = (∑ j : Fin 128, ((∑ k : Fin 128, h k * Wt0 j k) + bt0 j) * Ws1 a j) + bs1 a := by
  have h1 : (∑ k : Fin 128, h k * (∑ j : Fin 128, Ws1 a j * Wt0 j k))
      = ∑ j : Fin 128, (∑ k : Fin 128, h k * Wt0 j k) * Ws1 a j := by
    simp only [Finset.mul_sum, Finset.sum_mul]
    rw [Finset.sum_comm]
    refine Finset.sum_congr rfl fun j _ => Finset.sum_congr rfl fun k _ => ?_
    ring
  have h2 : (∑ j : Fin 128, ((∑ k : Fin 128, h k * Wt0 j k) + bt0 j) * Ws1 a j)
      = (∑ j : Fin 128, (∑ k : Fin 128, h k * Wt0 j k) * Ws1 a j) + ∑ j : Fin 128, bt0 j * Ws1 a j := by
    rw [← Finset.sum_add_distrib]
    refine Finset.sum_congr rfl fun j _ => ?_
    ring
  rw [h1, h2]
  ring

/-- THE LAW: on real rows, weights and biases the kernel's collapsed order and the reference's order give one row. -/
theorem kernelRow_eq_refRow (x : Fin 128 → EReal) (Ws0 : Fin 128 → Fin 128 → EReal) (bs0 : Fin 128 → EReal)
    (Wt0 : Fin 128 → Fin 128 → EReal) (bt0 : Fin 128 → EReal) (Ws1 : Fin 128 → Fin 128 → EReal) (bs1 : Fin 128 → EReal)
    (Wt1 : Fin 128 → Fin 128 → EReal) (bt1 : Fin 128 → EReal)
    (hx : Real1 x) (hWs0 : Real2 Ws0) (hbs0 : Real1 bs0) (hWt0 : Real2 Wt0) (hbt0 : Real1 bt0)
    (hWs1 : Real2 Ws1) (hbs1 : Real1 bs1) :
    kernelRow x Ws0 bs0 Wt0 bt0 Ws1 bs1 Wt1 bt1 = refRow x Ws0 bs0 Wt0 bt0 Ws1 bs1 Wt1 bt1 := by
  -- real witnesses for every entry
  have hx' : ∀ a, ∃ r : ℝ, x a = (r : EReal) := hx
  have hWs0' : ∀ a k, ∃ r : ℝ, Ws0 a k = (r : EReal) := hWs0
  have hbs0' : ∀ a, ∃ r : ℝ, bs0 a = (r : EReal) := hbs0
  have hWt0' : ∀ a k, ∃ r : ℝ, Wt0 a k = (r : EReal) := hWt0
  have hbt0' : ∀ a, ∃ r : ℝ, bt0 a = (r : EReal) := hbt0
  have hWs1' : ∀ a k, ∃ r : ℝ, Ws1 a k = (r : EReal) := hWs1
  have hbs1' : ∀ a, ∃ r : ℝ, bs1 a = (r : EReal) := hbs1
  choose xr hxr using hx'
  choose Ws0r hWs0r using hWs0'
  choose bs0r hbs0r using hbs0'
  choose Wt0r hWt0r using hWt0'
  choose bt0r hbt0r using hbt0'
  choose Ws1r hWs1r using hWs1'
  choose bs1r hbs1r using hbs1'
  obtain rfl : x = fun a => (xr a : EReal) := funext hxr
  obtain rfl : Ws0 = fun a k => (Ws0r a k : EReal) := funext fun a => funext fun k => hWs0r a k
  obtain rfl : bs0 = fun a => (bs0r a : EReal) := funext hbs0r
  obtain rfl : Wt0 = fun a k => (Wt0r a k : EReal) := funext fun a => funext fun k => hWt0r a k
  obtain rfl : bt0 = fun a => (bt0r a : EReal) := funext hbt0r
  obtain rfl : Ws1 = fun a k => (Ws1r a k : EReal) := funext fun a => funext fun k => hWs1r a k
  obtain rfl : bs1 = fun a => (bs1r a : EReal) := funext hbs1r
  -- the collapsed middle layer equals the two middle layers in sequence
  have key : aff (relu (aff (fun a => (xr a : EReal)) (fun a k => (Ws0r a k : EReal)) (fun a => (bs0r a : EReal))))
        (midW (fun a k => (Ws1r a k : EReal)) (fun a k => (Wt0r a k : EReal)))
        (midB (fun a => (bt0r a : EReal)) (fun a k => (Ws1r a k : EReal)) (fun a => (bs1r a : EReal)))
      = aff (aff (relu (aff (fun a => (xr a : EReal)) (fun a k => (Ws0r a k : EReal)) (fun a => (bs0r a : EReal))))
          (fun a k => (Wt0r a k : EReal)) (fun a => (bt0r a : EReal)))
          (fun a k => (Ws1r a k : EReal)) (fun a => (bs1r a : EReal)) := by
    rw [aff_coe, relu_coe, midW_coe, midB_coe, aff_coe, aff_coe, aff_coe]
    funext a
    exact congrArg _ (real_law _ _ _ _ _ a)
  unfold kernelRow refRow
  rw [key]

end Cert.Mlp

end
-- ==== Proof.SpecIdx.lean ====
/-
  The row-wise perceptron of Spec.lean read over arrays: a [n,128] feature array row by row, [128,128] weight
  matrices, biases as [128] vectors (the reference's layout) or as [1,128] rows (the kernel's layout), and the two
  whole-array results `outK` (kernel order) and `outR` (reference order), equal on real inputs.
-/
import proofs.«178610_g78271484003207_cont_sun_c4_201_21_alg».proof.Proof.Spec

noncomputable section

namespace Cert.Mlp

open Idealize.ShloMosaic Idealize.ShloMosaic.ValueIdx

/-- A [128,128] array as a matrix. -/
abbrev mat (W : (⟨2, ![128, 128]⟩ : Shape).Idx → EReal) : Fin 128 → Fin 128 → EReal := fun a k => W (ix2 a k)
/-- A [128] array as a vector. -/
abbrev vec (b : (⟨1, ![128]⟩ : Shape).Idx → EReal) : Fin 128 → EReal := fun a => b (ix1 a)
/-- A [1,128] array as a vector. -/
abbrev vec1 (b : (⟨2, ![1, 128]⟩ : Shape).Idx → EReal) : Fin 128 → EReal := fun a => b (ix2 (0 : Fin 1) a)
/-- Row `r` of an [n,128] array. -/
abbrev rowOf {n : Nat} (t : (⟨2, ![n, 128]⟩ : Shape).Idx → EReal) (r : Fin n) : Fin 128 → EReal := fun k => t (ix2 r k)

/-- The whole result in the kernel's order: row `i 0` of the features through `kernelRow`, read at column `i 1`. -/
def outK (t : (⟨2, ![100000, 128]⟩ : Shape).Idx → EReal)
    (Ws0 : (⟨2, ![128, 128]⟩ : Shape).Idx → EReal) (bs0 : (⟨1, ![128]⟩ : Shape).Idx → EReal)
    (Wt0 : (⟨2, ![128, 128]⟩ : Shape).Idx → EReal) (bt0 : (⟨1, ![128]⟩ : Shape).Idx → EReal)
    (Ws1 : (⟨2, ![128, 128]⟩ : Shape).Idx → EReal) (bs1 : (⟨1, ![128]⟩ : Shape).Idx → EReal)
    (Wt1 : (⟨2, ![128, 128]⟩ : Shape).Idx → EReal) (bt1 : (⟨1, ![128]⟩ : Shape).Idx → EReal) :
    (⟨2, ![100000, 128]⟩ : Shape).Idx → EReal :=
  fun i => kernelRow (rowOf t ⟨(i 0).val, (i 0).isLt⟩) (mat Ws0) (vec bs0) (mat Wt0) (vec bt0) (mat Ws1) (vec bs1) (mat Wt1) (vec bt1)
    ⟨(i 1).val, (i 1).isLt⟩

/-- The whole result in the reference's order. -/
def outR (t : (⟨2, ![100000, 128]⟩ : Shape).Idx → EReal)
    (Ws0 : (⟨2, ![128, 128]⟩ : Shape).Idx → EReal) (bs0 : (⟨1, ![128]⟩ : Shape).Idx → EReal)
    (Wt0 : (⟨2, ![128, 128]⟩ : Shape).Idx → EReal) (bt0 : (⟨1, ![128]⟩ : Shape).Idx → EReal)
    (Ws1 : (⟨2, ![128, 128]⟩ : Shape).Idx → EReal) (bs1 : (⟨1, ![128]⟩ : Shape).Idx → EReal)
    (Wt1 : (⟨2, ![128, 128]⟩ : Shape).Idx → EReal) (bt1 : (⟨1, ![128]⟩ : Shape).Idx → EReal) :
    (⟨2, ![100000, 128]⟩ : Shape).Idx → EReal :=
  fun i => refRow (rowOf t ⟨(i 0).val, (i 0).isLt⟩) (mat Ws0) (vec bs0) (mat Wt0) (vec bt0) (mat Ws1) (vec bs1) (mat Wt1) (vec bt1)
    ⟨(i 1).val, (i 1).isLt⟩

/-- Every entry of an array is a real number. -/
def AllReal {s : Shape} (x : s.Idx → EReal) : Prop := ∀ i, ∃ r : ℝ, x i = (r : EReal)

/-- On arrays of real numbers the two orders give one array. -/
theorem outK_eq_outR (t : (⟨2, ![100000, 128]⟩ : Shape).Idx → EReal)
    (Ws0 : (⟨2, ![128, 128]⟩ : Shape).Idx → EReal) (bs0 : (⟨1, ![128]⟩ : Shape).Idx → EReal)
    (Wt0 : (⟨2, ![128, 128]⟩ : Shape).Idx → EReal) (bt0 : (⟨1, ![128]⟩ : Shape).Idx → EReal)
    (Ws1 : (⟨2, ![128, 128]⟩ : Shape).Idx → EReal) (bs1 : (⟨1, ![128]⟩ : Shape).Idx → EReal)
    (Wt1 : (⟨2, ![128, 128]⟩ : Shape).Idx → EReal) (bt1 : (⟨1, ![128]⟩ : Shape).Idx → EReal)
    (ht : AllReal t) (hWs0 : AllReal Ws0) (hbs0 : AllReal bs0) (hWt0 : AllReal Wt0) (hbt0 : AllReal bt0)
    (hWs1 : AllReal Ws1) (hbs1 : AllReal bs1) :
    outK t Ws0 bs0 Wt0 bt0 Ws1 bs1 Wt1 bt1 = outR t Ws0 bs0 Wt0 bt0 Ws1 bs1 Wt1 bt1 := by
  funext i
  unfold outK outR
  rw [kernelRow_eq_refRow _ _ _ _ _ _ _ _ _ (fun k => ht _) (fun a k => hWs0 _) (fun a => hbs0 _) (fun a k => hWt0 _)
    (fun a => hbt0 _) (fun a k => hWs1 _) (fun a => hbs1 _)]

end Cert.Mlp

end
-- ==== Proof.PayValue.lean ====
/-
  The kernel body's three stored values at the exact instance, index by index: the collapsed middle matrix, the
  collapsed middle bias, and a block row through the three layers.
-/
import proofs.«178610_g78271484003207_cont_sun_c4_201_21_alg».proof.Proof.Gen.KernelIdeal.Skeleton
import proofs.«178610_g78271484003207_cont_sun_c4_201_21_alg».proof.Proof.SpecIdx
import Idealize.ShloMosaic.PureOps.Ideal.Laws
import Idealize.ShloMosaic.Lib.Pipeline.Value
import Idealize.ShloMosaic.Lib.ValueLayout
import Idealize.ShloMosaic.Lib.IdealHost

noncomputable section

namespace Cert.KernelIdeal.PayValue

open Cert.KernelIdeal Cert.KernelIdeal.Gen Cert.Mlp
open Idealize.ShloMosaic Idealize.ShloMosaic.TcCoe Idealize.ShloMosaic.ValueIdx

/-! ## The matrix product of two [128,128] blocks, the left operand's columns against the right operand's rows -/

/-- The left operand is read at the result's row … -/
theorem lhs_mm1_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
/-- … and at the summation position as its column; -/
theorem lhs_mm1_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
/-- the right operand is read at the summation position as its row … -/
theorem rhs_mm1_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
/-- … and at the result's column. -/
theorem rhs_mm1_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- Entry (a, k) of the product accumulated into zero is `∑ j, x a j * y j k`. -/
theorem mm1_apply {φ₁ φ₂ : FTy} (x : FVec Ideal S128x128 φ₁) (y : FVec Ideal S128x128 φ₂) (a k : Fin 128) :
    matmul dot_S128x128_S128x128_S128x128_1_0_0_1_n_n none x y (constant (F := Ideal) S128x128 .f32 0x00000000#32) (ix2 a k)
      = ∑ j : Fin 128, x (ix2 a j) * y (ix2 j k) := by
  show FloatOps.matmul dot_S128x128_S128x128_S128x128_1_0_0_1_n_n none x y (constant (F := Ideal) S128x128 .f32 0x00000000#32) (ix2 a k) = _
  rw [Ideal.matmul_constant_zero_apply, ← Equiv.sum_comp (ValueIdx.contrEquiv1 dot_S128x128_S128x128_S128x128_1_0_0_1_n_n 128 rfl rfl).symm]
  refine Finset.sum_congr rfl fun j _ => ?_
  have hj := ValueIdx.contrEquiv1_symm_val dot_S128x128_S128x128_S128x128_1_0_0_1_n_n 128 rfl rfl j
  have el : dot_S128x128_S128x128_S128x128_1_0_0_1_n_n.lhsIdx (ix2 a k) ((ValueIdx.contrEquiv1 dot_S128x128_S128x128_S128x128_1_0_0_1_n_n 128 rfl rfl).symm j) = ix2 a j := funext fun b => Fin.ext (by
    match b with
    | ⟨0, _⟩ => exact lhs_mm1_0 _ _
    | ⟨1, _⟩ => exact (lhs_mm1_1 _ _).trans hj)
  have er : dot_S128x128_S128x128_S128x128_1_0_0_1_n_n.rhsIdx (ix2 a k) ((ValueIdx.contrEquiv1 dot_S128x128_S128x128_S128x128_1_0_0_1_n_n 128 rfl rfl).symm j) = ix2 j k := funext fun b => Fin.ext (by
    match b with
    | ⟨0, _⟩ => exact (rhs_mm1_0 _ _).trans hj
    | ⟨1, _⟩ => exact rhs_mm1_1 _ _)
  rw [el, er]

/-- The value stored into the first scratch buffer is `Ws1 · Wt0` (its operands are the blocks of Ws1 and Wt0). -/
theorem pay1_apply (v34 v35 : Vec Ideal S128x128 .f32) (a k : Fin 128) :
    k0_pay1 (F := Ideal) v34 v35 (ix2 a k) = midW (mat v34) (mat v35) a k := by
  unfold k0_pay1
  rw [shapeCast_self]
  exact mm1_apply v34 v35 a k

/-! ## A [1,128] row against the rows of a [128,128] block -/

/-- The left operand is read at the result's row … -/
theorem lhs_mm2_0 (i : S1x128.Idx) (q : dot_S1x128_S128x128_S1x128_1_1_0_0_n_n.contr.Idx) :
    (dot_S1x128_S128x128_S1x128_1_1_0_0_n_n.lhsIdx i q 0).val = (i 0).val := by
  unfold DotDims.lhsIdx
  rw [dif_neg (show ¬(0 : Fin S1x128.rank) ∈ dot_S1x128_S128x128_S1x128_1_1_0_0_n_n.lhsBatch by decide), dif_pos (show (0 : Fin S1x128.rank) ∈ dot_S1x128_S128x128_S1x128_1_1_0_0_n_n.lhsNonContracting by decide)]
  rfl
/-- … and at the summation position as its column; -/
theorem lhs_mm2_1 (i : S1x128.Idx) (q : dot_S1x128_S128x128_S1x128_1_1_0_0_n_n.contr.Idx) :
    (dot_S1x128_S128x128_S1x128_1_1_0_0_n_n.lhsIdx i q 1).val = (q ⟨0, by decide⟩).val :=
  dot_S1x128_S128x128_S1x128_1_1_0_0_n_n.lhsIdx_val_of_single rfl i q
/-- the right operand is read at the result's column as its row … -/
theorem rhs_mm2_0 (i : S1x128.Idx) (q : dot_S1x128_S128x128_S1x128_1_1_0_0_n_n.contr.Idx) :
    (dot_S1x128_S128x128_S1x128_1_1_0_0_n_n.rhsIdx i q 0).val = (i 1).val := by
  unfold DotDims.rhsIdx
  rw [dif_neg (show ¬(0 : Fin S128x128.rank) ∈ dot_S1x128_S128x128_S1x128_1_1_0_0_n_n.rhsBatch by decide), dif_pos (show (0 : Fin S128x128.rank) ∈ dot_S1x128_S128x128_S1x128_1_1_0_0_n_n.rhsNonContracting by decide)]
  rfl
/-- … and at the summation position as its column. -/
theorem rhs_mm2_1 (i : S1x128.Idx) (q : dot_S1x128_S128x128_S1x128_1_1_0_0_n_n.contr.Idx) :
    (dot_S1x128_S128x128_S1x128_1_1_0_0_n_n.rhsIdx i q 1).val = (q ⟨0, by decide⟩).val :=
  dot_S1x128_S128x128_S1x128_1_1_0_0_n_n.rhsIdx_val_of_single rfl i q

/-- Entry a of the row-by-rows product accumulated into zero is \`∑ k, x k * y a k\`. -/
theorem mm2_apply {φ₁ φ₂ : FTy} (x : FVec Ideal S1x128 φ₁) (y : FVec Ideal S128x128 φ₂) (a : Fin 128) :
    matmul dot_S1x128_S128x128_S1x128_1_1_0_0_n_n none x y (constant (F := Ideal) S1x128 .f32 0x00000000#32) (ix2 (0 : Fin 1) a)
      = ∑ k : Fin 128, x (ix2 (0 : Fin 1) k) * y (ix2 a k) := by
  show FloatOps.matmul dot_S1x128_S128x128_S1x128_1_1_0_0_n_n none x y (constant (F := Ideal) S1x128 .f32 0x00000000#32) (ix2 (0 : Fin 1) a) = _
  rw [Ideal.matmul_constant_zero_apply, ← Equiv.sum_comp (ValueIdx.contrEquiv1 dot_S1x128_S128x128_S1x128_1_1_0_0_n_n 128 rfl rfl).symm]
  refine Finset.sum_congr rfl fun k _ => ?_
  have hk := ValueIdx.contrEquiv1_symm_val dot_S1x128_S128x128_S1x128_1_1_0_0_n_n 128 rfl rfl k
  have el : dot_S1x128_S128x128_S1x128_1_1_0_0_n_n.lhsIdx (ix2 (0 : Fin 1) a) ((ValueIdx.contrEquiv1 dot_S1x128_S128x128_S1x128_1_1_0_0_n_n 128 rfl rfl).symm k) = ix2 (0 : Fin 1) k := funext fun b => Fin.ext (by
    match b with
    | ⟨0, _⟩ => exact lhs_mm2_0 _ _
    | ⟨1, _⟩ => exact (lhs_mm2_1 _ _).trans hk)
  have er : dot_S1x128_S128x128_S1x128_1_1_0_0_n_n.rhsIdx (ix2 (0 : Fin 1) a) ((ValueIdx.contrEquiv1 dot_S1x128_S128x128_S1x128_1_1_0_0_n_n 128 rfl rfl).symm k) = ix2 a k := funext fun b => Fin.ext (by
    match b with
    | ⟨0, _⟩ => exact rhs_mm2_0 _ _
    | ⟨1, _⟩ => exact (rhs_mm2_1 _ _).trans hk)
  rw [el, er]

/-- The value stored into the second scratch buffer is `Ws1 · bt0 + bs1` as a [1,128] row (operands: bt0's row, Ws1, bs1's row). -/
theorem pay2_apply (v40 : Vec Ideal S1x128 .f32) (v42 : Vec Ideal S128x128 .f32) (v44 : Vec Ideal S1x128 .f32) (a : Fin 128) :
    k0_pay2 (F := Ideal) v40 v42 v44 (ix2 (0 : Fin 1) a) = midB (vec1 v40) (mat v42) (vec1 v44) a := by
  unfold k0_pay2
  rw [shapeCast_self, shapeCast_self, shapeCast_self, addf_apply]
  exact congrArg (· + v44 (ix2 (0 : Fin 1) a)) (mm2_apply v40 v42 a)

/-! ## A [19200,128] block against the rows of a [128,128] block, and the layers built on it -/

/-- The left operand is read at the result's row … -/
theorem lhs_mm3_0 (i : S19200x128.Idx) (q : dot_S19200x128_S128x128_S19200x128_1_1_0_0_n_n.contr.Idx) :
    (dot_S19200x128_S128x128_S19200x128_1_1_0_0_n_n.lhsIdx i q 0).val = (i 0).val := by
  unfold DotDims.lhsIdx
  rw [dif_neg (show ¬(0 : Fin S19200x128.rank) ∈ dot_S19200x128_S128x128_S19200x128_1_1_0_0_n_n.lhsBatch by decide), dif_pos (show (0 : Fin S19200x128.rank) ∈ dot_S19200x128_S128x128_S19200x128_1_1_0_0_n_n.lhsNonContracting by decide)]
  rfl
/-- … and at the summation position as its column; -/
theorem lhs_mm3_1 (i : S19200x128.Idx) (q : dot_S19200x128_S128x128_S19200x128_1_1_0_0_n_n.contr.Idx) :
    (dot_S19200x128_S128x128_S19200x128_1_1_0_0_n_n.lhsIdx i q 1).val = (q ⟨0, by decide⟩).val :=
  dot_S19200x128_S128x128_S19200x128_1_1_0_0_n_n.lhsIdx_val_of_single rfl i q
/-- the right operand is read at the result's column as its row … -/
theorem rhs_mm3_0 (i : S19200x128.Idx) (q : dot_S19200x128_S128x128_S19200x128_1_1_0_0_n_n.contr.Idx) :
    (dot_S19200x128_S128x128_S19200x128_1_1_0_0_n_n.rhsIdx i q 0).val = (i 1).val := by
  unfold DotDims.rhsIdx
  rw [dif_neg (show ¬(0 : Fin S128x128.rank) ∈ dot_S19200x128_S128x128_S19200x128_1_1_0_0_n_n.rhsBatch by decide), dif_pos (show (0 : Fin S128x128.rank) ∈ dot_S19200x128_S128x128_S19200x128_1_1_0_0_n_n.rhsNonContracting by decide)]
  rfl
/-- … and at the summation position as its column. -/
theorem rhs_mm3_1 (i : S19200x128.Idx) (q : dot_S19200x128_S128x128_S19200x128_1_1_0_0_n_n.contr.Idx) :
    (dot_S19200x128_S128x128_S19200x128_1_1_0_0_n_n.rhsIdx i q 1).val = (q ⟨0, by decide⟩).val :=
  dot_S19200x128_S128x128_S19200x128_1_1_0_0_n_n.rhsIdx_val_of_single rfl i q

/-- Entry (r, a) of the block-by-rows product accumulated into zero is \`∑ k, x r k * y a k\`. -/
theorem mm3_apply {φ₁ φ₂ : FTy} (x : FVec Ideal S19200x128 φ₁) (y : FVec Ideal S128x128 φ₂) (r : Fin 19200) (a : Fin 128) :
    matmul dot_S19200x128_S128x128_S19200x128_1_1_0_0_n_n none x y (constant (F := Ideal) S19200x128 .f32 0x00000000#32) (ix2 r a)
      = ∑ k : Fin 128, x (ix2 r k) * y (ix2 a k) := by
  show FloatOps.matmul dot_S19200x128_S128x128_S19200x128_1_1_0_0_n_n none x y (constant (F := Ideal) S19200x128 .f32 0x00000000#32) (ix2 r a) = _
  rw [Ideal.matmul_constant_zero_apply, ← Equiv.sum_comp (ValueIdx.contrEquiv1 dot_S19200x128_S128x128_S19200x128_1_1_0_0_n_n 128 rfl rfl).symm]
  refine Finset.sum_congr rfl fun k _ => ?_
  have hk := ValueIdx.contrEquiv1_symm_val dot_S19200x128_S128x128_S19200x128_1_1_0_0_n_n 128 rfl rfl k
  have el : dot_S19200x128_S128x128_S19200x128_1_1_0_0_n_n.lhsIdx (ix2 r a) ((ValueIdx.contrEquiv1 dot_S19200x128_S128x128_S19200x128_1_1_0_0_n_n 128 rfl rfl).symm k) = ix2 r k := funext fun b => Fin.ext (by
    match b with
    | ⟨0, _⟩ => exact lhs_mm3_0 _ _
    | ⟨1, _⟩ => exact (lhs_mm3_1 _ _).trans hk)
  have er : dot_S19200x128_S128x128_S19200x128_1_1_0_0_n_n.rhsIdx (ix2 r a) ((ValueIdx.contrEquiv1 dot_S19200x128_S128x128_S19200x128_1_1_0_0_n_n 128 rfl rfl).symm k) = ix2 a k := funext fun b => Fin.ext (by
    match b with
    | ⟨0, _⟩ => exact rhs_mm3_0 _ _
    | ⟨1, _⟩ => exact (rhs_mm3_1 _ _).trans hk)
  rw [el, er]

/-- A hidden layer at (r, a): the product, the bias row added along every row, and the maximum with zero. -/
theorem hidden_apply {φ₁ φ₂ : FTy} (x : FVec Ideal S19200x128 φ₁) (W : FVec Ideal S128x128 φ₂) (b : FVec Ideal S1x128 .bf16)
    (r : Fin 19200) (a : Fin 128) :
    maximumf (addf (truncf .bf16 (matmul dot_S19200x128_S128x128_S19200x128_1_1_0_0_n_n none x W (constant (F := Ideal) S19200x128 .f32 0x00000000#32)) bitsLt_bf16_f32)
        (broadcastTo S19200x128 b broadcasts_S1x128_S19200x128))
      (broadcast S19200x128 (Scalar.ofBits (F := Ideal) .bf16 0x0000#16)) (ix2 r a)
      = max ((∑ k : Fin 128, x (ix2 r k) * W (ix2 a k)) + b (ix2 (0 : Fin 1) a)) 0 := by
  rw [maximumf_apply, broadcast_apply, addf_apply, truncf_apply, mm3_apply, broadcastTo_1b_ab_apply]
  exact congrArg (max _) Ideal.ofBits_zero_bf16

/-- The last layer at (r, a): the product and the bias row added along every row. -/
theorem last_apply {φ₁ φ₂ : FTy} (x : FVec Ideal S19200x128 φ₁) (W : FVec Ideal S128x128 φ₂) (b : FVec Ideal S1x128 .f32)
    (r : Fin 19200) (a : Fin 128) :
    addf (matmul dot_S19200x128_S128x128_S19200x128_1_1_0_0_n_n none x W (constant (F := Ideal) S19200x128 .f32 0x00000000#32))
        (broadcastTo S19200x128 b broadcasts_S1x128_S19200x128) (ix2 r a)
      = (∑ k : Fin 128, x (ix2 r k) * W (ix2 a k)) + b (ix2 (0 : Fin 1) a) := by
  rw [addf_apply, mm3_apply, broadcastTo_1b_ab_apply]

/-- The value stored into the output block, at row `r` and column `a`: row `r` of the feature block through the
    three layers with the middle matrix `v16` and middle bias row `v20` as loaded from scratch. Only row `r` of the
    feature block enters. -/
theorem pay3_apply (v3 : Vec Ideal S19200x128 .f32) (v5 : Vec Ideal S128x128 .f32) (v9 : Vec Ideal S1x128 .f32)
    (v16 : Vec Ideal S128x128 .f32) (v20 : Vec Ideal S1x128 .f32) (v26 : Vec Ideal S128x128 .f32) (v29 : Vec Ideal S1x128 .f32)
    (r : Fin 19200) (a : Fin 128) :
    k0_pay3 (F := Ideal) v3 v5 v9 v16 v20 v26 v29 (ix2 r a)
      = aff (relu (aff (relu (aff (rowOf v3 r) (mat v5) (vec1 v9))) (mat v16) (vec1 v20))) (mat v26) (vec1 v29) a := by
  unfold k0_pay3
  simp only [shapeCast_self]
  -- the third layer, over the second hidden row
  refine (last_apply _ _ _ r a).trans ?_
  refine congrArg (· + v29 (ix2 (0 : Fin 1) a)) (Finset.sum_congr rfl fun k _ => congrArg (· * v26 (ix2 a k)) ?_)
  -- the second layer, over the first hidden row
  refine (hidden_apply _ _ _ r k).trans ?_
  refine congrArg (fun t => max (t + v20 (ix2 (0 : Fin 1) k)) 0) (Finset.sum_congr rfl fun j _ => congrArg (· * v16 (ix2 k j)) ?_)
  -- the first layer, over the feature row
  exact hidden_apply _ _ _ r j

end Cert.KernelIdeal.PayValue

end
-- ==== Proof.KernelValue.lean ====
/-
  What the idealized kernel's result array holds, at the exact instance.

  Each weight window's block is its whole array and each bias window's block the bias vector as a row, so the two
  scratch buffers hold the collapsed middle matrix Ws1 · Wt0 and bias Ws1 · bt0 + bs1 of the launch contents. Row r of the
  value the body stores at point t depends on row r of the feature buffer only; for a row inside the array that is row
  (5 − t)·19200 + r of the features. So the part of the result's buffer the write-back at point t moves is block 5 − t of
  one whole-array function, the kernel-order result, independently of the unnamed rows of the first point's feature
  buffer; the six blocks (the last one cut at row 100000) cover the array, which therefore ends holding that function.
-/
import proofs.«178610_g78271484003207_cont_sun_c4_201_21_alg».proof.Proof.KernelIdeal.Frame
import proofs.«178610_g78271484003207_cont_sun_c4_201_21_alg».proof.Proof.PayValue
import Idealize.ShloMosaic.Lib.Pipeline.Value
import Idealize.ShloMosaic.Lib.ValueLayout
import Idealize.ShloMosaic.Lib.StableHlo.Run

set_option maxRecDepth 32768

noncomputable section

namespace Cert.KernelIdeal.KValue

open Cert.KernelIdeal Cert.KernelIdeal.Gen Cert.KernelIdeal.Hand Cert.KernelIdeal.PayValue Cert.Mlp
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The weight and bias blocks are the argument arrays -/

/-- The eight weight and bias windows have the constant block index zero, so an element of the block sits at its own
    coordinates in the array. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem emb1 (t : Fin cfg0.N) (y : S128x128.Idx) : ((cfg0.win 1).blk t).view.emb y = y :=
  funext fun a => Fin.ext (by
    match a with
    | ⟨0, _⟩ =>
      show win0_1.index t 0 * 128 + 1 * (y 0).val = (y 0).val
      rw [(idx1 t).1]; omega
    | ⟨1, _⟩ =>
      show win0_1.index t 1 * 128 + 1 * (y 1).val = (y 1).val
      rw [(idx1 t).2]; omega)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem emb3 (t : Fin cfg0.N) (y : S128x128.Idx) : ((cfg0.win 3).blk t).view.emb y = y :=
  funext fun a => Fin.ext (by
    match a with
    | ⟨0, _⟩ =>
      show win0_3.index t 0 * 128 + 1 * (y 0).val = (y 0).val
      rw [(idx3 t).1]; omega
    | ⟨1, _⟩ =>
      show win0_3.index t 1 * 128 + 1 * (y 1).val = (y 1).val
      rw [(idx3 t).2]; omega)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem emb5 (t : Fin cfg0.N) (y : S128x128.Idx) : ((cfg0.win 5).blk t).view.emb y = y :=
  funext fun a => Fin.ext (by
    match a with
    | ⟨0, _⟩ =>
      show win0_5.index t 0 * 128 + 1 * (y 0).val = (y 0).val
      rw [(idx5 t).1]; omega
    | ⟨1, _⟩ =>
      show win0_5.index t 1 * 128 + 1 * (y 1).val = (y 1).val
      rw [(idx5 t).2]; omega)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem emb7 (t : Fin cfg0.N) (y : S128x128.Idx) : ((cfg0.win 7).blk t).view.emb y = y :=
  funext fun a => Fin.ext (by
    match a with
    | ⟨0, _⟩ =>
      show win0_7.index t 0 * 128 + 1 * (y 0).val = (y 0).val
      rw [(idx7 t).1]; omega
    | ⟨1, _⟩ =>
      show win0_7.index t 1 * 128 + 1 * (y 1).val = (y 1).val
      rw [(idx7 t).2]; omega)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem emb2 (t : Fin cfg0.N) (y : S1x128.Idx) : ((cfg0.win 2).blk t).view.emb y = y :=
  funext fun a => Fin.ext (by
    match a with
    | ⟨0, _⟩ =>
      show win0_2.index t 0 * 1 + 1 * (y 0).val = (y 0).val
      rw [(idx2 t).1]; omega
    | ⟨1, _⟩ =>
      show win0_2.index t 1 * 128 + 1 * (y 1).val = (y 1).val
      rw [(idx2 t).2]; omega)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem emb4 (t : Fin cfg0.N) (y : S1x128.Idx) : ((cfg0.win 4).blk t).view.emb y = y :=
  funext fun a => Fin.ext (by
    match a with
    | ⟨0, _⟩ =>
      show win0_4.index t 0 * 1 + 1 * (y 0).val = (y 0).val
      rw [(idx4 t).1]; omega
    | ⟨1, _⟩ =>
      show win0_4.index t 1 * 128 + 1 * (y 1).val = (y 1).val
      rw [(idx4 t).2]; omega)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem emb6 (t : Fin cfg0.N) (y : S1x128.Idx) : ((cfg0.win 6).blk t).view.emb y = y :=
  funext fun a => Fin.ext (by
    match a with
    | ⟨0, _⟩ =>
      show win0_6.index t 0 * 1 + 1 * (y 0).val = (y 0).val
      rw [(idx6 t).1]; omega
    | ⟨1, _⟩ =>
      show win0_6.index t 1 * 128 + 1 * (y 1).val = (y 1).val
      rw [(idx6 t).2]; omega)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem emb8 (t : Fin cfg0.N) (y : S1x128.Idx) : ((cfg0.win 8).blk t).view.emb y = y :=
  funext fun a => Fin.ext (by
    match a with
    | ⟨0, _⟩ =>
      show win0_8.index t 0 * 1 + 1 * (y 0).val = (y 0).val
      rw [(idx8 t).1]; omega
    | ⟨1, _⟩ =>
      show win0_8.index t 1 * 128 + 1 * (y 1).val = (y 1).val
      rw [(idx8 t).2]; omega)

/-- Window 1's block is the whole weight array. -/
theorem blk1_eq (c : Dev nD) (t : Fin cfg0.N) : mat (blk1 m c t) = mat (m ((c : Thread nD τ).loc main_arg1)) := by
  funext a k
  show V m c main_arg1 (((cfg0.win 1).blk t).view.emb (ix2 a k)) = m ((c : Thread nD τ).loc main_arg1) (ix2 a k)
  rw [emb1, V_main_arg1]
/-- Window 3's block is the whole weight array. -/
theorem blk3_eq (c : Dev nD) (t : Fin cfg0.N) : mat (blk3 m c t) = mat (m ((c : Thread nD τ).loc main_arg3)) := by
  funext a k
  show V m c main_arg3 (((cfg0.win 3).blk t).view.emb (ix2 a k)) = m ((c : Thread nD τ).loc main_arg3) (ix2 a k)
  rw [emb3, V_main_arg3]
/-- Window 5's block is the whole weight array. -/
theorem blk5_eq (c : Dev nD) (t : Fin cfg0.N) : mat (blk5 m c t) = mat (m ((c : Thread nD τ).loc main_arg5)) := by
  funext a k
  show V m c main_arg5 (((cfg0.win 5).blk t).view.emb (ix2 a k)) = m ((c : Thread nD τ).loc main_arg5) (ix2 a k)
  rw [emb5, V_main_arg5]
/-- Window 7's block is the whole weight array. -/
theorem blk7_eq (c : Dev nD) (t : Fin cfg0.N) : mat (blk7 m c t) = mat (m ((c : Thread nD τ).loc main_arg7)) := by
  funext a k
  show V m c main_arg7 (((cfg0.win 7).blk t).view.emb (ix2 a k)) = m ((c : Thread nD τ).loc main_arg7) (ix2 a k)
  rw [emb7, V_main_arg7]

/-- The array window 2 stages is the bias vector `main_arg2` reshaped to a row. -/
theorem v0_eq (c : Dev nD) : (V m c main_call0_v0 : S1x128.Idx → EReal)
    = shapeCast S1x128 (m ((c : Thread nD τ).loc main_arg2)) shapeCasts_S128_S1x128 := by
  dsimp only [V, hostOps0]; after_results; rfl
/-- Window 2's block, read as a vector, is the bias vector. -/
theorem blk2_eq (c : Dev nD) (t : Fin cfg0.N) : vec1 (blk2 m c t) = vec (m ((c : Thread nD τ).loc main_arg2)) := by
  funext a
  show V m c main_call0_v0 (((cfg0.win 2).blk t).view.emb (ix2 (0 : Fin 1) a)) = m ((c : Thread nD τ).loc main_arg2) (ix1 a)
  rw [emb2, v0_eq]
  exact shapeCast_a_1a_apply _ _ _ _
/-- The array window 4 stages is the bias vector `main_arg4` reshaped to a row. -/
theorem v1_eq (c : Dev nD) : (V m c main_call0_v1 : S1x128.Idx → EReal)
    = shapeCast S1x128 (m ((c : Thread nD τ).loc main_arg4)) shapeCasts_S128_S1x128 := by
  dsimp only [V, hostOps0]; after_results; rfl
/-- Window 4's block, read as a vector, is the bias vector. -/
theorem blk4_eq (c : Dev nD) (t : Fin cfg0.N) : vec1 (blk4 m c t) = vec (m ((c : Thread nD τ).loc main_arg4)) := by
  funext a
  show V m c main_call0_v1 (((cfg0.win 4).blk t).view.emb (ix2 (0 : Fin 1) a)) = m ((c : Thread nD τ).loc main_arg4) (ix1 a)
  rw [emb4, v1_eq]
  exact shapeCast_a_1a_apply _ _ _ _
/-- The array window 6 stages is the bias vector `main_arg6` reshaped to a row. -/
theorem v2_eq (c : Dev nD) : (V m c main_call0_v2 : S1x128.Idx → EReal)
    = shapeCast S1x128 (m ((c : Thread nD τ).loc main_arg6)) shapeCasts_S128_S1x128 := by
  dsimp only [V, hostOps0]; after_results; rfl
/-- Window 6's block, read as a vector, is the bias vector. -/
theorem blk6_eq (c : Dev nD) (t : Fin cfg0.N) : vec1 (blk6 m c t) = vec (m ((c : Thread nD τ).loc main_arg6)) := by
  funext a
  show V m c main_call0_v2 (((cfg0.win 6).blk t).view.emb (ix2 (0 : Fin 1) a)) = m ((c : Thread nD τ).loc main_arg6) (ix1 a)
  rw [emb6, v2_eq]
  exact shapeCast_a_1a_apply _ _ _ _
/-- The array window 8 stages is the bias vector `main_arg8` reshaped to a row. -/
theorem v3_eq (c : Dev nD) : (V m c main_call0_v3 : S1x128.Idx → EReal)
    = shapeCast S1x128 (m ((c : Thread nD τ).loc main_arg8)) shapeCasts_S128_S1x128 := by
  dsimp only [V, hostOps0]; after_results; rfl
/-- Window 8's block, read as a vector, is the bias vector. -/
theorem blk8_eq (c : Dev nD) (t : Fin cfg0.N) : vec1 (blk8 m c t) = vec (m ((c : Thread nD τ).loc main_arg8)) := by
  funext a
  show V m c main_call0_v3 (((cfg0.win 8).blk t).view.emb (ix2 (0 : Fin 1) a)) = m ((c : Thread nD τ).loc main_arg8) (ix1 a)
  rw [emb8, v3_eq]
  exact shapeCast_a_1a_apply _ _ _ _

/-! ## The scratch contents are the collapsed middle layer -/

theorem midWv_eq (c : Dev nD) :
    mat (midWv m c) = midW (mat (m ((c : Thread nD τ).loc main_arg5))) (mat (m ((c : Thread nD τ).loc main_arg3))) := by
  funext a k
  show k0_pay1 (F := Ideal) (blk5 m c t0_0) (blk3 m c t0_0) (ix2 a k) = _
  rw [pay1_apply, blk5_eq, blk3_eq]

theorem midBv_eq (c : Dev nD) :
    vec1 (midBv m c) = midB (vec (m ((c : Thread nD τ).loc main_arg4))) (mat (m ((c : Thread nD τ).loc main_arg5)))
      (vec (m ((c : Thread nD τ).loc main_arg6))) := by
  funext a
  show k0_pay2 (F := Ideal) (blk4 m c t0_0) (blk5 m c t0_0) (blk6 m c t0_0) (ix2 (0 : Fin 1) a) = _
  rw [pay2_apply, blk4_eq, blk5_eq, blk6_eq]

/-! ## The feature and result windows over the grid -/

/-- Point `t` stages and writes back block `5 − t`; the block of the first point keeps 4000 rows inside the array, the
    others all 19200. -/
theorem geo0 : ∀ t : Fin cfg0.N, win0_0.index t (0 : Fin 2) = 5 - t.val ∧ win0_0.index t (1 : Fin 2) = 0
    ∧ win0_0.xsize (grid0.coords t) (0 : Fin 2) = (if t.val = 0 then 4000 else 19200) ∧ win0_0.xsize (grid0.coords t) (1 : Fin 2) = 128 :=
  (by decide +kernel : ∀ t : Fin grid0.N, win0_0.index t (0 : Fin 2) = 5 - t.val ∧ win0_0.index t (1 : Fin 2) = 0
    ∧ win0_0.xsize (grid0.coords t) (0 : Fin 2) = (if t.val = 0 then 4000 else 19200) ∧ win0_0.xsize (grid0.coords t) (1 : Fin 2) = 128)
theorem geo9 : ∀ t : Fin cfg0.N, win0_9.index t (0 : Fin 2) = 5 - t.val ∧ win0_9.index t (1 : Fin 2) = 0
    ∧ win0_9.xsize (grid0.coords t) (0 : Fin 2) = (if t.val = 0 then 4000 else 19200) ∧ win0_9.xsize (grid0.coords t) (1 : Fin 2) = 128 :=
  (by decide +kernel : ∀ t : Fin grid0.N, win0_9.index t (0 : Fin 2) = 5 - t.val ∧ win0_9.index t (1 : Fin 2) = 0
    ∧ win0_9.xsize (grid0.coords t) (0 : Fin 2) = (if t.val = 0 then 4000 else 19200) ∧ win0_9.xsize (grid0.coords t) (1 : Fin 2) = 128)

/-- The rows of block `5 − t` that lie inside the array. -/
def rowsIn (t : Fin cfg0.N) : Nat := if t.val = 0 then 4000 else 19200

theorem row_lt (t : Fin cfg0.N) (r : Fin 19200) (hr : r.val < rowsIn t) : (5 - t.val) * 19200 + r.val < 100000 := by
  have hN : t.val < 6 := lt_of_lt_of_eq t.isLt N_0
  unfold rowsIn at hr
  split at hr <;> omega

/-- Row `r` of the feature buffer at point `t`, for a row inside the array, is row `(5 − t)·19200 + r` of the features,
    whatever fills the buffer's other rows. -/
theorem blk0_row (c : Dev nD) (t : Fin cfg0.N) (d : Vec Ideal S19200x128 .f32) (r : Fin 19200) (hr : r.val < rowsIn t) :
    rowOf (blk0 m c t d) r = rowOf (m ((c : Thread nD τ).loc main_arg0)) ⟨(5 - t.val) * 19200 + r.val, row_lt t r hr⟩ := by
  funext k
  have hm : win0_0.moved (grid0.coords t) (ix2 r k) = true := (win0_0.moved_iff _ _).mpr fun a => by
    match a with
    | ⟨0, _⟩ => show r.val < win0_0.xsize (grid0.coords t) 0; rw [(geo0 t).2.2.1]; exact hr
    | ⟨1, _⟩ => show k.val < win0_0.xsize (grid0.coords t) 1; rw [(geo0 t).2.2.2]; exact k.isLt
  show win0_0.fill (grid0.coords t) d (iblk m c 0 t) (ix2 r k) = _
  unfold Window.fill
  rw [dif_pos hm]
  show V m c main_arg0 (((cfg0.win 0).blk t).view.emb _) = m ((c : Thread nD τ).loc main_arg0) (ix2 _ k)
  rw [V_main_arg0]
  refine congrArg _ (funext fun a => Fin.ext ?_)
  match a with
  | ⟨0, _⟩ =>
    show win0_0.index t 0 * 19200 + 1 * r.val = (5 - t.val) * 19200 + r.val
    rw [(geo0 t).1]; omega
  | ⟨1, _⟩ =>
    show win0_0.index t 1 * 128 + 1 * k.val = k.val
    rw [(geo0 t).2.1]; omega

/-! ## The result block, row by row -/

/-- The result in the kernel's order, of the launch contents of the nine arguments. -/
def G (c : Dev nD) : S100000x128.Idx → EReal :=
  outK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What the body stores at row `r` (inside the array) and column `a` of the result's buffer at point `t` is the kernel-order
    result at row `(5 − t)·19200 + r`, whatever the feature buffer's unnamed rows hold. -/
theorem outBlk_apply (c : Dev nD) (t : Fin cfg0.N) (d : Vec Ideal S19200x128 .f32) (r : Fin 19200) (hr : r.val < rowsIn t) (a : Fin 128) :
    outBlk m c t d (ix2 r a) = G m c (ix2 ⟨(5 - t.val) * 19200 + r.val, row_lt t r hr⟩ a) := by
  unfold outBlk
  rw [pay3_apply, blk0_row m c t d r hr, blk1_eq, blk2_eq, midWv_eq, midBv_eq, blk7_eq, blk8_eq]
  rfl

/-! ## The write-backs piece the result together -/

/-- An index of the result block's part inside the array, as a row below `rowsIn t` and a column. -/
theorem y0_lt (t : Fin cfg0.N) (y : (win0_9.xblock (grid0.coords t)).Idx) : (y 0).val < rowsIn t := by
  have h := (y 0).isLt
  have e : win0_9.xsize (grid0.coords t) (0 : Fin 2) = rowsIn t := (geo9 t).2.2.1
  exact lt_of_lt_of_eq h e
theorem y0_lt' (t : Fin cfg0.N) (y : (win0_9.xblock (grid0.coords t)).Idx) : (y 0).val < 19200 := by
  have := y0_lt t y; unfold rowsIn at this; split at this <;> omega
theorem y1_lt (t : Fin cfg0.N) (y : (win0_9.xblock (grid0.coords t)).Idx) : (y 1).val < 128 := by
  have h := (y 1).isLt
  have e : win0_9.xsize (grid0.coords t) (1 : Fin 2) = 128 := (geo9 t).2.2.2
  exact lt_of_lt_of_eq h e

/-- The part of the result's buffer the write-back at point `t` moves is block `5 − t` of the kernel-order result, cut at
    the array's end — whatever the feature buffer's unnamed rows held. -/
theorem cut_outBlk (c : Dev nD) (t : Fin cfg0.N) (d : Vec Ideal S19200x128 .f32) :
    win0_9.cut (grid0.coords t) (outBlk m c t d) = ((cfg0.win 9).blk t).view.read (Elt Ideal) (G m c) := by
  funext y
  show outBlk m c t d (win0_9.xinj (grid0.coords t) y) = G m c (((cfg0.win 9).blk t).view.emb y)
  have e1 : win0_9.xinj (grid0.coords t) y = ix2 (⟨(y 0).val, y0_lt' t y⟩ : Fin 19200) (⟨(y 1).val, y1_lt t y⟩ : Fin 128) :=
    funext fun a => Fin.ext (by match a with | ⟨0, _⟩ => rfl | ⟨1, _⟩ => rfl)
  have e2 : ((cfg0.win 9).blk t).view.emb y
      = ix2 (⟨(5 - t.val) * 19200 + (y 0).val, row_lt t ⟨(y 0).val, y0_lt' t y⟩ (y0_lt t y)⟩ : Fin 100000) (⟨(y 1).val, y1_lt t y⟩ : Fin 128) :=
    funext fun a => Fin.ext (by
      match a with
      | ⟨0, _⟩ =>
        show win0_9.index t 0 * 19200 + 1 * (y 0).val = (5 - t.val) * 19200 + (y 0).val
        rw [(geo9 t).1]; omega
      | ⟨1, _⟩ =>
        show win0_9.index t 1 * 128 + 1 * (y 1).val = (y 1).val
        rw [(geo9 t).2.1]; omega)
  rw [e1, e2]
  exact outBlk_apply m c t d ⟨(y 0).val, y0_lt' t y⟩ (y0_lt t y) ⟨(y 1).val, y1_lt t y⟩

/-- So the rows the write-back moves do not depend on the feature buffer's unnamed rows. -/
theorem hloc (c : Dev nD) (t : Fin cfg0.N) (d : Vec Ideal S19200x128 .f32) :
    win0_9.cut (grid0.coords t) (outBlk m c t d) = win0_9.cut (grid0.coords t) (outBlk m c t zeroFill) :=
  (cut_outBlk m c t d).trans (cut_outBlk m c t zeroFill).symm

theorem flushed_eq (c : Dev nD) (t : Fin cfg0.N) :
    (dats m 0 c).flushed 9 t = ((cfg0.win 9).blk t).view.read (Elt Ideal) (G m c) := by
  show (cfg0.win 9).cut (cfg0.grid.coords t) ((dats m 0 c).after 9 t) = _
  rw [after_9]
  exact cut_outBlk m c t zeroFill

/-- An index of the result array lies in point `t`'s block iff its row is among the block's rows inside the array. -/
theorem mem_blk (t : Fin cfg0.N) (i : S100000x128.Idx) :
    i ∈ ((cfg0.win 9).blk t).view.set ↔ (5 - t.val) * 19200 ≤ (i 0).val ∧ (i 0).val < (5 - t.val) * 19200 + rowsIn t := by
  show i ∈ ((View.whole main_v0).slice (win0_9.rect t)).set ↔ _
  rw [View.set_slice_whole, Rect.mem_set_unit]
  have h1 : (i 1).val < 128 := (i 1).isLt
  constructor
  · intro h
    have h0 := h 0
    change win0_9.index t 0 * win0_9.size 0 ≤ (i 0 : Nat) ∧ (i 0 : Nat) < win0_9.index t 0 * win0_9.size 0 + win0_9.xsize (grid0.coords t) 0 at h0
    rw [(geo9 t).1, (geo9 t).2.2.1] at h0
    exact h0
  · intro h a
    match a with
    | ⟨0, _⟩ =>
      change win0_9.index t 0 * win0_9.size 0 ≤ (i 0 : Nat) ∧ (i 0 : Nat) < win0_9.index t 0 * win0_9.size 0 + win0_9.xsize (grid0.coords t) 0
      rw [(geo9 t).1, (geo9 t).2.2.1]
      exact h
    | ⟨1, _⟩ =>
      change win0_9.index t 1 * win0_9.size 1 ≤ (i 1 : Nat) ∧ (i 1 : Nat) < win0_9.index t 1 * win0_9.size 1 + win0_9.xsize (grid0.coords t) 1
      rw [(geo9 t).2.1, (geo9 t).2.2.2]
      omega

/-- Every row of the result lies in the block of the point `5 − row / 19200`. -/
theorem cover (i : S100000x128.Idx) : ∃ t : Fin cfg0.N, (cfg0.win 9).flush t = true ∧ i ∈ ((cfg0.win 9).blk t).view.set := by
  have h0 : (i 0).val < 100000 := (i 0).isLt
  have hN : cfg0.N = 6 := N_0
  refine ⟨⟨5 - (i 0).val / 19200, by omega⟩, flush0_9 _, ?_⟩
  rw [mem_blk]
  unfold rowsIn
  dsimp only
  split <;> omega

/-- THE RESULT ARRAY after the six write-backs is the kernel-order result of the launch contents. -/
theorem final (c : Dev nD) : (dats m 0 c).arrAt 9 cfg0.N = G m c :=
  (dats m 0 c).arrAt_eq_of_cover 9 (G m c) (fun t _ => flushed_eq m c t) cover

/-- THE VALUE RUN: every weakly fair execution of the idealized kernel terminates with the result array at the kernel-order
    result of the launch contents and the nine argument arrays as launched. -/
theorem run : θ_run defs (onTc (τ := τ) (main (F := Ideal))) ⟨m, fun _ => 0, ρ⟩ (fun r => ∀ c : Dev nD,
    r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 9).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c)⟩)
    (run_exact m ρ (hloc m))

end Cert.KernelIdeal.KValue

end
-- ==== Proof.RefValue.lean ====
/-
  The reference's result, index by index, is the four-layer perceptron of Spec.lean applied to the row of the index.

  Each of the reference's four matrix products contracts the row of the index with a transposed weight matrix, so its
  element at (r, a) is the sum over k of the left operand at (r, k) times the weight at (a, k); each bias is a [128]
  vector broadcast along the rows, so it is read at a; each maximum is taken with the constant zero. Layer by layer
  these are `aff` and `relu` of Spec.lean.
-/
import proofs.«178610_g78271484003207_cont_sun_c4_201_21_alg».proof.Proof.Gen.ReferenceIdeal.Read
import proofs.«178610_g78271484003207_cont_sun_c4_201_21_alg».proof.Proof.SpecIdx

noncomputable section

namespace Cert.ReferenceIdeal.RefValue

open Cert.ReferenceIdeal Cert.ReferenceIdeal.Gen Cert.ReferenceIdeal.Read Cert.Mlp
open Idealize.ShloMosaic Idealize.ShloMosaic.TcCoe Idealize.ShloMosaic.ValueIdx

/-! ### The composed index functions of the reference's stages, at an index given by its coordinates -/

/-- The left operand of the contraction is read at row `r`, column `k`. -/
theorem lidx_v1 (r : Fin 100000) (a k : Fin 128) : lidx_main_v1 (ix2 r a) k = ix2 r k :=
  funext fun d => Fin.ext (by match d with | ⟨0, _⟩ => rfl | ⟨1, _⟩ => rfl)
/-- The transposed weight matrix is read at row `a`, column `k`. -/
theorem widx_v1 (r : Fin 100000) (a k : Fin 128) : idx_main_v0 (ridx_main_v1 (ix2 r a) k) = ix2 a k :=
  funext fun d => Fin.ext (by match d with | ⟨0, _⟩ => rfl | ⟨1, _⟩ => rfl)

/-- The left operand of the contraction is read at row `r`, column `k`. -/
theorem lidx_v8 (r : Fin 100000) (a k : Fin 128) : lidx_main_v8 (ix2 r a) k = ix2 r k :=
  funext fun d => Fin.ext (by match d with | ⟨0, _⟩ => rfl | ⟨1, _⟩ => rfl)
/-- The transposed weight matrix is read at row `a`, column `k`. -/
theorem widx_v8 (r : Fin 100000) (a k : Fin 128) : idx_main_v7 (ridx_main_v8 (ix2 r a) k) = ix2 a k :=
  funext fun d => Fin.ext (by match d with | ⟨0, _⟩ => rfl | ⟨1, _⟩ => rfl)

/-- The left operand of the contraction is read at row `r`, column `k`. -/
theorem lidx_v13 (r : Fin 100000) (a k : Fin 128) : lidx_main_v13 (ix2 r a) k = ix2 r k :=
  funext fun d => Fin.ext (by match d with | ⟨0, _⟩ => rfl | ⟨1, _⟩ => rfl)
/-- The transposed weight matrix is read at row `a`, column `k`. -/
theorem widx_v13 (r : Fin 100000) (a k : Fin 128) : idx_main_v12 (ridx_main_v13 (ix2 r a) k) = ix2 a k :=
  funext fun d => Fin.ext (by match d with | ⟨0, _⟩ => rfl | ⟨1, _⟩ => rfl)

/-- The left operand of the contraction is read at row `r`, column `k`. -/
theorem lidx_v20 (r : Fin 100000) (a k : Fin 128) : lidx_main_v20 (ix2 r a) k = ix2 r k :=
  funext fun d => Fin.ext (by match d with | ⟨0, _⟩ => rfl | ⟨1, _⟩ => rfl)
/-- The transposed weight matrix is read at row `a`, column `k`. -/
theorem widx_v20 (r : Fin 100000) (a k : Fin 128) : idx_main_v19 (ridx_main_v20 (ix2 r a) k) = ix2 a k :=
  funext fun d => Fin.ext (by match d with | ⟨0, _⟩ => rfl | ⟨1, _⟩ => rfl)

/-- The bias, broadcast along the rows, is read at `a`. -/
theorem bidx_v3 (r : Fin 100000) (a : Fin 128) : idx_main_v2 (idx_main_v3 (ix2 r a)) = ix1 a :=
  funext fun d => Fin.ext (by match d with | ⟨0, _⟩ => rfl)

/-- The bias, broadcast along the rows, is read at `a`. -/
theorem bidx_v10 (r : Fin 100000) (a : Fin 128) : idx_main_v9 (idx_main_v10 (ix2 r a)) = ix1 a :=
  funext fun d => Fin.ext (by match d with | ⟨0, _⟩ => rfl)

/-- The bias, broadcast along the rows, is read at `a`. -/
theorem bidx_v15 (r : Fin 100000) (a : Fin 128) : idx_main_v14 (idx_main_v15 (ix2 r a)) = ix1 a :=
  funext fun d => Fin.ext (by match d with | ⟨0, _⟩ => rfl)

/-- The bias, broadcast along the rows, is read at `a`. -/
theorem bidx_v22 (r : Fin 100000) (a : Fin 128) : idx_main_v21 (idx_main_v22 (ix2 r a)) = ix1 a :=
  funext fun d => Fin.ext (by match d with | ⟨0, _⟩ => rfl)

/-! ### The layers -/

/-- The first affine layer: the contraction of row `r` with the first weight matrix, plus the first bias. -/
theorem layer_v4 (x0 : (⟨S100000x128, .f32⟩ : BufTy).Contents (Elt Ideal)) (x1 : (⟨S128x128, .f32⟩ : BufTy).Contents (Elt Ideal)) (x2 : (⟨S128, .f32⟩ : BufTy).Contents (Elt Ideal)) (r : Fin 100000) (a : Fin 128) :
    val_main_v4 (F := Ideal) x0 x1 x2 (ix2 r a) = aff (rowOf x0 r) (mat x1) (vec x2) a := by
  rw [val_main_v4_apply, val_main_v1_apply, val_main_v3_apply, val_main_v2_apply, bidx_v3]
  simp only [val_main_v0_apply, lidx_v1, widx_v1]
  rfl

/-- The maximum with the zero constant is the rectifier. -/
theorem layer_v6 (x0 : (⟨S100000x128, .f32⟩ : BufTy).Contents (Elt Ideal)) (x1 : (⟨S128x128, .f32⟩ : BufTy).Contents (Elt Ideal)) (x2 : (⟨S128, .f32⟩ : BufTy).Contents (Elt Ideal)) (r : Fin 100000) (a : Fin 128) :
    val_main_v6 (F := Ideal) x0 x1 x2 (ix2 r a) = relu (aff (rowOf x0 r) (mat x1) (vec x2)) a := by
  rw [val_main_v6_apply, layer_v4, val_main_v5_apply, val_main_cst_apply, Ideal.ofBits_def, Ideal.ofBits_zero_f32]
  rfl

/-- The second affine layer, on the rectified first layer. -/
theorem layer_v11 (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (r : Fin 100000) (a : Fin 128) :
    val_main_v11 (F := Ideal) x0 x1 x2 x3 x4 (ix2 r a) = aff (relu (aff (rowOf x0 r) (mat x1) (vec x2))) (mat x3) (vec x4) a := by
  rw [val_main_v11_apply, val_main_v8_apply, val_main_v10_apply, val_main_v9_apply, bidx_v10]
  simp only [val_main_v7_apply, lidx_v8, widx_v8, layer_v6]
  rfl

/-- The third affine layer, directly on the second (no nonlinearity between them). -/
theorem layer_v16 (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (r : Fin 100000) (a : Fin 128) :
    val_main_v16 (F := Ideal) x0 x1 x2 x3 x4 x5 x6 (ix2 r a) = aff (aff (relu (aff (rowOf x0 r) (mat x1) (vec x2))) (mat x3) (vec x4)) (mat x5) (vec x6) a := by
  rw [val_main_v16_apply, val_main_v13_apply, val_main_v15_apply, val_main_v14_apply, bidx_v15]
  simp only [val_main_v12_apply, lidx_v13, widx_v13, layer_v11]
  rfl

/-- The second rectifier. -/
theorem layer_v18 (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (r : Fin 100000) (a : Fin 128) :
    val_main_v18 (F := Ideal) x0 x1 x2 x3 x4 x5 x6 (ix2 r a) = relu (aff (aff (relu (aff (rowOf x0 r) (mat x1) (vec x2))) (mat x3) (vec x4)) (mat x5) (vec x6)) a := by
  rw [val_main_v18_apply, layer_v16, val_main_v17_apply, val_main_cst_0_apply, Ideal.ofBits_def, Ideal.ofBits_zero_f32]
  rfl

/-- The fourth affine layer. -/
theorem layer_v23 (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (r : Fin 100000) (a : Fin 128) :
    val_main_v23 (F := Ideal) x0 x1 x2 x3 x4 x5 x6 x7 x8 (ix2 r a) = aff (relu (aff (aff (relu (aff (rowOf x0 r) (mat x1) (vec x2))) (mat x3) (vec x4)) (mat x5) (vec x6))) (mat x7) (vec x8) a := by
  rw [val_main_v23_apply, val_main_v20_apply, val_main_v22_apply, val_main_v21_apply, bidx_v22]
  simp only [val_main_v19_apply, lidx_v20, widx_v20, layer_v18]
  rfl

/-- The reference's last stage is `outR` of its nine arguments. -/
theorem ref_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v23 (F := Ideal) x0 x1 x2 x3 x4 x5 x6 x7 x8 = outR x0 x1 x2 x3 x4 x5 x6 x7 x8 := by
  funext i
  obtain ⟨r, a, rfl⟩ : ∃ (r : Fin 100000) (a : Fin 128), i = ix2 r a := ⟨i 0, i 1, eq_ix2 i⟩
  rw [layer_v23]
  rfl

end Cert.ReferenceIdeal.RefValue

end
-- ==== Proof.Finite.lean ====
/-
  The precondition says every entry of every argument array is finite: strictly below +∞ in absolute value, hence a
  real number.
-/
import proofs.«178610_g78271484003207_cont_sun_c4_201_21_alg».proof.Defs
import proofs.«178610_g78271484003207_cont_sun_c4_201_21_alg».proof.Proof.Gen.Pre_finite_inputs
import proofs.«178610_g78271484003207_cont_sun_c4_201_21_alg».proof.Proof.SpecIdx
import Idealize.ShloMosaic.Lib.ReduceAll

noncomputable section

namespace Cert.Finite

open Idealize.ShloMosaic Idealize.ShloMosaic.TcCoe Cert.Mlp

/-- The result shape has no axes, so it has exactly one index. -/
instance : Subsingleton (Cert.Pre_finite_inputs.S_).Idx := ⟨fun a b => funext fun d => d.elim0⟩

/-- The f32 pattern `0x7F800000` denotes +∞. -/
theorem top_f32 : Ideal.ofBits .f32 0x7F800000#32 = (⊤ : EReal) := by simp [Ideal.ofBits, Ideal.ieee]

/-- An extended real with `max x (-x) < +∞` is a real number: at `⊥` and at `⊤` that maximum is `⊤`. -/
theorem real_of_abs_lt_top (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [top_f32] at h'
  simp only [Ideal.cmp] at h'
  induction x using EReal.rec with
  | bot => simp at h'
  | top => simp at h'
  | coe r => exact ⟨r, rfl⟩

/-- One conjunct, for an array of any shape: if the conjunction over all indices of `|x i| < +∞` is 1, every entry of
    `x` is a real number. The conjunction being 1 gives the comparison at each index, and the element fact reads it. -/
theorem allReal_of_all {s : Shape} {axes : List (Fin s.rank)} (x : FVec Ideal s .f32)
    (hb : Cert.Pre_finite_inputs.S_.BroadcastsInDim s (![] : Fin 0 → Fin s.rank))
    (hred : s.ReducesTo axes Cert.Pre_finite_inputs.S_) (hS : 0 < Cert.Pre_finite_inputs.S_.numel)
    (h : Host.reduce IntOp.andi
        (cmpf .olt (Host.absf x) (broadcastInDim s ![] hb (constant Cert.Pre_finite_inputs.S_ .f32 0x7F800000#32)))
        (constantI Cert.Pre_finite_inputs.S_ 1 1#1) hred hS ValueIdx.ix0 = 1#1) :
    AllReal x := by
  intro i
  exact real_of_abs_lt_top (x i) (Host.reduce_andi_all _ _ hred hS _ h i)

/-- The printed predicate at the exact instance, all ones, makes each of the first seven arguments an array of reals
    (the last two are not needed by the algebra). -/
theorem allReal_of_fn (a0 : FVec Ideal Cert.Pre_finite_inputs.S100000x128 .f32) (a1 : FVec Ideal Cert.Pre_finite_inputs.S128x128 .f32)
    (a2 : FVec Ideal Cert.Pre_finite_inputs.S128 .f32) (a3 : FVec Ideal Cert.Pre_finite_inputs.S128x128 .f32)
    (a4 : FVec Ideal Cert.Pre_finite_inputs.S128 .f32) (a5 : FVec Ideal Cert.Pre_finite_inputs.S128x128 .f32)
    (a6 : FVec Ideal Cert.Pre_finite_inputs.S128 .f32) (a7 : FVec Ideal Cert.Pre_finite_inputs.S128x128 .f32)
    (a8 : FVec Ideal Cert.Pre_finite_inputs.S128 .f32)
    (h : Cert.Pre_finite_inputs.fn (F := Ideal) a0 a1 a2 a3 a4 a5 a6 a7 a8 = (fun _ => 1#1)) :
    AllReal a0 ∧ AllReal a1 ∧ AllReal a2 ∧ AllReal a3 ∧ AllReal a4 ∧ AllReal a5 ∧ AllReal a6 := by
  -- the predicate at its one index: a left-nested conjunction of nine conjuncts, one per argument
  have h0 := congrFun h ValueIdx.ix0
  dsimp only [Cert.Pre_finite_inputs.fn] at h0
  dsimp only [Cert.Pre_finite_inputs.fn_part1] at h0
  dsimp only [Cert.Pre_finite_inputs.fn_part2] at h0
  dsimp only [andi] at h0
  simp only [IntOp.andi_eq_one] at h0
  obtain ⟨⟨⟨⟨⟨⟨⟨⟨e0, e1⟩, e2⟩, e3⟩, e4⟩, e5⟩, e6⟩, _⟩, _⟩ := h0
  exact ⟨allReal_of_all a0 _ _ _ e0, allReal_of_all a1 _ _ _ e1, allReal_of_all a2 _ _ _ e2, allReal_of_all a3 _ _ _ e3,
    allReal_of_all a4 _ _ _ e4, allReal_of_all a5 _ _ _ e5, allReal_of_all a6 _ _ _ e6⟩

end Cert.Finite

end
-- ==== Proof.lean ====
/-
  The certificate of the fused three-matmul perceptron kernel against its four-layer reference.

  The kernel collapses the two middle affine layers, between which there is no nonlinearity, into one: W_mid = Ws1 · Wt0,
  b_mid = Ws1 · bt0 + bs1, computed at the grid's first point and kept in scratch. Over the extended reals the collapse is
  sound as soon as every input is a real number (distributivity and the exchange of two finite sums hold there), which is
  what the precondition gives. The frames: both printed kernels run their one region to the end over proof data that
  track the scratch buffers and say nothing of the rows of the first point's feature block past the array's end; the
  reference's frame is its run with the result dropped. The value: the kernel's result array is the kernel-order
  function of the launch contents (block by block, the last block cut at the array's end), the reference's the
  reference-order function, and the two agree on real inputs.
-/
import proofs.«178610_g78271484003207_cont_sun_c4_201_21_alg».proof.Defs
import proofs.«178610_g78271484003207_cont_sun_c4_201_21_alg».proof.Proof.Gen.Kernel
import proofs.«178610_g78271484003207_cont_sun_c4_201_21_alg».proof.Proof.Gen.KernelIdeal
import proofs.«178610_g78271484003207_cont_sun_c4_201_21_alg».proof.Proof.Gen.ReferenceIdeal
import proofs.«178610_g78271484003207_cont_sun_c4_201_21_alg».proof.Proof.Gen.Pre_finite_inputs
import proofs.«178610_g78271484003207_cont_sun_c4_201_21_alg».proof.Proof.Gen.ReferenceIdeal.Run
import proofs.«178610_g78271484003207_cont_sun_c4_201_21_alg».proof.Proof.Gen.ReferenceIdeal.Read
import proofs.«178610_g78271484003207_cont_sun_c4_201_21_alg».proof.Proof.Kernel.Frame
import proofs.«178610_g78271484003207_cont_sun_c4_201_21_alg».proof.Proof.KernelIdeal.Frame
import proofs.«178610_g78271484003207_cont_sun_c4_201_21_alg».proof.Proof.KernelValue
import proofs.«178610_g78271484003207_cont_sun_c4_201_21_alg».proof.Proof.RefValue
import proofs.«178610_g78271484003207_cont_sun_c4_201_21_alg».proof.Proof.Finite
import Idealize.ShloMosaic.Adequacy
import Idealize.ShloMosaic.Init

noncomputable section

namespace Cert.Proof

open Idealize.ShloMosaic Idealize.SL.Sem

/-- The word-level kernel's frame. -/
theorem frame_k [Cert.Kernel.Facts] [Cert.Pre_finite_inputs.Facts] : Cert.frame_Kernel :=
  fun m ρ _ => Cert.Kernel.Hand.frame (F := Bits) m ρ

/-- The idealized kernel's frame. -/
theorem frame_ki [Cert.KernelIdeal.Facts] [Cert.Pre_finite_inputs.Facts] : Cert.frame_KernelIdeal :=
  fun m ρ _ => Cert.KernelIdeal.Hand.frame (F := Ideal) m ρ

/-- The reference's frame: its run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both idealized programs end with the kernel-order result of the kernel's launch contents: the kernel by its value
    run; the reference because its last stage is the reference-order result of its own launch contents, which agree with
    the kernel's, and the two orders agree on the real arrays the precondition provides. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5, r6⟩ := Cert.Finite.allReal_of_fn _ _ _ _ _ _ _ _ _ (hpre c)
  rw [Cert.ReferenceIdeal.Read.val_main_v23_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.Mlp.outK_eq_outR _ _ _ _ _ _ _ _ _ r0 r1 r2 r3 r4 r5 r6).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
